-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1x50257 : Shape := ⟨2, ![1, 50257]⟩

abbrev nBuf : Space → Nat
  | .hbm => 114
  | .vmem => 7
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S2048x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x512, .f32⟩
  | .hbm, ⟨44, _⟩ => ⟨S1x512, .f32⟩
  | .hbm, ⟨45, _⟩ => ⟨S1x1024, .f32⟩
  | .hbm, ⟨46, _⟩ => ⟨S1x1024, .f32⟩
  | .hbm, ⟨47, _⟩ => ⟨S1x2048, .f32⟩
  | .hbm, ⟨48, _⟩ => ⟨S2048x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1024x3072, .f32⟩
  | .hbm, ⟨56, _⟩ => ⟨S1x3072, .f32⟩
  | .hbm, ⟨57, _⟩ => ⟨S1x3072, .f32⟩
  | .hbm, ⟨58, _⟩ => ⟨S1x3072, .f32⟩
  | .hbm, ⟨59, _⟩ => ⟨S1024x3072, .f32⟩
  | .hbm, ⟨60, _⟩ => ⟨S1x3072, .f32⟩
  | .hbm, ⟨61, _⟩ => ⟨S1x3072, .f32⟩
  | .hbm, ⟨62, _⟩ => ⟨S1x3072, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S_, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x50257, .f32⟩
  | .hbm, ⟨97, _⟩ => ⟨S1x50257, .f32⟩
  | .hbm, ⟨98, _⟩ => ⟨S_, .f32⟩
  | .hbm, ⟨99, _⟩ => ⟨S1, .f32⟩
  | .hbm, ⟨100, _⟩ => ⟨S_, .f32⟩
  | .hbm, ⟨101, _⟩ => ⟨S1, .f32⟩
  | .hbm, ⟨102, _⟩ => ⟨S1, .f32⟩
  | .hbm, ⟨103, _⟩ => ⟨S1x1, .f32⟩
  | .hbm, ⟨104, _⟩ => ⟨S1x50257, .f32⟩
  | .hbm, ⟨105, _⟩ => ⟨S1x50257, .f32⟩
  | .hbm, ⟨106, _⟩ => ⟨S1x50257, .f32⟩
  | .hbm, ⟨107, _⟩ => ⟨S_, .f32⟩
  | .hbm, ⟨108, _⟩ => ⟨S1, .f32⟩
  | .hbm, ⟨109, _⟩ => ⟨S1x1, .f32⟩
  | .hbm, ⟨110, _⟩ => ⟨S1x1, .f32⟩
  | .hbm, ⟨111, _⟩ => ⟨S1x50257, .f32⟩
  | .hbm, ⟨112, _⟩ => ⟨S1x50257, .f32⟩
  | .hbm, ⟨113, _⟩ => ⟨S1x1x1024, .f32⟩
  | .local _ .vmem, ⟨0, _⟩ => ⟨S1x1024, .f32⟩
  | .local _ .vmem, ⟨1, _⟩ => ⟨S3072x1024, .f32⟩
  | .local _ .vmem, ⟨2, _⟩ => ⟨S3072x1024, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_7 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_call1_cst_0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_cst_1 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_v72 : Ref sig .tc := ⟨.hbm, 112, rfl⟩
abbrev main_v73 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S3072x1024_S1x3072_1_1_0_0_n_n_wf : DotDims.WF S1x1024 S3072x1024 S1x3072 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3072x1024.size a < S50257x1024.size a
  hwx0_1 : ∀ i : grid0.Coords, EltTy.bits .f32 = 32 ∨ (Rect.unit (s := S50257x1024) (fun a => cc0_transform_1 i a * S3072x1024.size a) (fun a => (Pipeline.Clip.of (cc0_transform_1 i a) (S3072x1024.size a) (S50257x1024.size a)).extent (S3072x1024.size a)) fun a => Pipeline.Clip.inb (Pipeline.Clip.ok_of (hstart0_1 i a))).WholeWords (EltTy.packing .f32)
  hwxs0_1 : ∀ i : grid0.Coords, EltTy.bits .f32 = 32 ∨ (Rect.unit (s := S3072x1024) (fun _ => 0) (fun a => (Pipeline.Clip.of (cc0_transform_1 i a) (S3072x1024.size a) (S50257x1024.size a)).extent (S3072x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x3072.size a < S1x50257.size a
  hwx0_2 : ∀ i : grid0.Coords, EltTy.bits .f32 = 32 ∨ (Rect.unit (s := S1x50257) (fun a => cc0_transform_2 i a * S1x3072.size a) (fun a => (Pipeline.Clip.of (cc0_transform_2 i a) (S1x3072.size a) (S1x50257.size a)).extent (S1x3072.size a)) fun a => Pipeline.Clip.inb (Pipeline.Clip.ok_of (hstart0_2 i a))).WholeWords (EltTy.packing .f32)
  hwxs0_2 : ∀ i : grid0.Coords, EltTy.bits .f32 = 32 ∨ (Rect.unit (s := S1x3072) (fun _ => 0) (fun a => (Pipeline.Clip.of (cc0_transform_2 i a) (S1x3072.size a) (S1x50257.size a)).extent (S1x3072.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x3072.size a < S1x50257.size a
  hwx0_3 : ∀ i : grid0.Coords, EltTy.bits .f32 = 32 ∨ (Rect.unit (s := S1x50257) (fun a => cc0_transform_3 i a * S1x3072.size a) (fun a => (Pipeline.Clip.of (cc0_transform_3 i a) (S1x3072.size a) (S1x50257.size a)).extent (S1x3072.size a)) fun a => Pipeline.Clip.inb (Pipeline.Clip.ok_of (hstart0_3 i a))).WholeWords (EltTy.packing .f32)
  hwxs0_3 : ∀ i : grid0.Coords, EltTy.bits .f32 = 32 ∨ (Rect.unit (s := S1x3072) (fun _ => 0) (fun a => (Pipeline.Clip.of (cc0_transform_3 i a) (S1x3072.size a) (S1x50257.size a)).extent (S1x3072.size a)) fun a => (Nat.zero_add _).trans_le (Pipeline.Clip.extent_le (Pipeline.Clip.ok_of (hstart0_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf

abbrev win0_0 : Pipeline.Window sig grid0 :=
  Pipeline.Window.ofSpec (Memref.whole main_v69) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg12) S3072x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v70) S1x3072.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v71) S1x3072.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 118
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S2048x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x512, .f32⟩
  | .hbm, ⟨44, _⟩ => ⟨S1x512, .f32⟩
  | .hbm, ⟨45, _⟩ => ⟨S1x1024, .f32⟩
  | .hbm, ⟨46, _⟩ => ⟨S1x1024, .f32⟩
  | .hbm, ⟨47, _⟩ => ⟨S1x2048, .f32⟩
  | .hbm, ⟨48, _⟩ => ⟨S2048x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1024x3072, .f32⟩
  | .hbm, ⟨56, _⟩ => ⟨S1x3072, .f32⟩
  | .hbm, ⟨57, _⟩ => ⟨S1x3072, .f32⟩
  | .hbm, ⟨58, _⟩ => ⟨S1x3072, .f32⟩
  | .hbm, ⟨59, _⟩ => ⟨S1x1024, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1024x50257, .f32⟩
  | .hbm, ⟨99, _⟩ => ⟨S1x50257, .f32⟩
  | .hbm, ⟨100, _⟩ => ⟨S1x50257, .f32⟩
  | .hbm, ⟨101, _⟩ => ⟨S1x50257, .f32⟩
  | .hbm, ⟨102, _⟩ => ⟨S_, .f32⟩
  | .hbm, ⟨103, _⟩ => ⟨S1, .f32⟩
  | .hbm, ⟨104, _⟩ => ⟨S_, .f32⟩
  | .hbm, ⟨105, _⟩ => ⟨S1, .f32⟩
  | .hbm, ⟨106, _⟩ => ⟨S1, .f32⟩
  | .hbm, ⟨107, _⟩ => ⟨S1x1, .f32⟩
  | .hbm, ⟨108, _⟩ => ⟨S1x50257, .f32⟩
  | .hbm, ⟨109, _⟩ => ⟨S1x50257, .f32⟩
  | .hbm, ⟨110, _⟩ => ⟨S1x50257, .f32⟩
  | .hbm, ⟨111, _⟩ => ⟨S_, .f32⟩
  | .hbm, ⟨112, _⟩ => ⟨S1, .f32⟩
  | .hbm, ⟨113, _⟩ => ⟨S1x1, .f32⟩
  | .hbm, ⟨114, _⟩ => ⟨S1x1, .f32⟩
  | .hbm, ⟨115, _⟩ => ⟨S1x50257, .f32⟩
  | .hbm, ⟨116, _⟩ => ⟨S1x50257, .f32⟩
  | .hbm, ⟨117, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_5 : Ref sig .tc := ⟨.hbm, 80, rfl⟩
abbrev main_v57 : Ref sig .tc := ⟨.hbm, 81, rfl⟩
abbrev main_v58 : Ref sig .tc := ⟨.hbm, 82, rfl⟩
abbrev main_cst_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_call1_cst : Ref sig .tc := ⟨.hbm, 102, rfl⟩
abbrev main_call1_v0 : Ref sig .tc := ⟨.hbm, 103, rfl⟩
abbrev main_call1_cst_0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_cst_1 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_v76 : Ref sig .tc := ⟨.hbm, 116, rfl⟩
abbrev main_v77 : Ref sig .tc := ⟨.hbm, 117, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.KernelBody.lean ====
/-
  The kernel body's triple of `Kernel`: the body of the one pallas_call — logits block = activations · weight
  blockᵀ + bias block — run on whichever staging buffers the pipeline hands it. Four whole loads (the fourth, of the
  result's buffer, dead) and one whole store: the three input buffers are left holding what they held and the result's
  buffer ends holding the payload `k0_pay1` of those contents. Generic in the float instance.
-/
import proofs.«154912_j14027363189411_1_alg».proof.Proof.Gen.Kernel.Skeleton
import proofs.«154912_j14027363189411_1_alg».proof.Proof.Gen.Kernel.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/- The body's triple at ONE choice of staging buffers, the four memrefs being the whole buffers `b0 … b3`: a load
   through the rectangle of a buffer's own sizes at zero offsets reads its contents, and the unmasked store through it
   overwrites them (`Memref.readAt_unit_zero`, `Memref.write_access_unit_zero_univ`); so the three inputs' buffers
   are handed back as found and the result's holds the payload of what the three held. The load of the result's
   buffer is dead: nothing reads what it returns. -/
set_option hygiene false in
local macro "body_at " b0:ident b1:ident b2:ident b3:ident : tactic => `(tactic| (
  have hz : (![0, 0] : Fin 2 → Nat) = fun _ => 0 := funext fun a => by fin_cases a <;> rfl
  have hr0 : (Memref.whole $b0 : Memref sig .tc _ _ _).view.readAt (Elt F) (Rect.unit (s := S1x1024) ![0, 0] S1x1024.size
      inb_S1x1024_S1x1024_0_0).toLoadRect = id := funext (Memref.readAt_unit_zero (Elt F) $b0 hz _)
  have hr1 : (Memref.whole $b1 : Memref sig .tc _ _ _).view.readAt (Elt F) (Rect.unit (s := S3072x1024) ![0, 0] S3072x1024.size
      inb_S3072x1024_S3072x1024_0_0).toLoadRect = id := funext (Memref.readAt_unit_zero (Elt F) $b1 hz _)
  have hr2 : (Memref.whole $b2 : Memref sig .tc _ _ _).view.readAt (Elt F) (Rect.unit (s := S1x3072) ![0, 0] S1x3072.size
      inb_S1x3072_S1x3072_0_0).toLoadRect = id := funext (Memref.readAt_unit_zero (Elt F) $b2 hz _)
  have hw3 : ∀ f w, (((Memref.whole $b3).access (Rect.unit (s := S1x3072) ![0, 0] S1x3072.size inb_S1x3072_S1x3072_0_0)) :
      View sig .tc _ _ _).write (Elt F) f w Finset.univ = w := Memref.write_access_unit_zero_univ (Elt F) $b3 hz _
  simp only [owns_whole_eq, cc0__logits_kernel_eq_skeleton]; unfold cc0__logits_kernel_skel
  simp only [Prog.lift, Prog.bind_op, Prog.bind_ret]
  iintro ⟨⟨⟨%f0, %hf0, H0⟩, ⟨%f1, %hf1, H1⟩, ⟨%f2, %hf2, H2⟩, ⟨%f3, %hf3, H3⟩⟩, Hk⟩
  sl_steps
  iapply Hk
  rw [hr0, hr1, hr2, hw3]
  subst hf0 hf1 hf2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  · iexists k0_pay1 f0 f1 f2; isplitr; · ipureintro; rfl
    iexact H3))

set_option maxHeartbeats 1600000 in
/-- The kernel body on staging buffers `s0` of the activations' window (its one), `s1` of the weight's, `s2` of the
    bias's and `s3` of the result's (each 0 or 1 by the point): the whole loads of the first three, the dead whole
    load of the result's, the whole store of the payload — the result's buffer ends holding `k0_pay1` of what the
    other three hold, those unchanged. -/
theorem sound_body (c : Dev nD) (E : Set ℕ) (i : grid0.Coords) (s0 : Fin 1) (s1 s2 s3 : Fin 2)
    (X0 : S1x1024.Idx → Elt F .f32) (X1 : S3072x1024.Idx → Elt F .f32) (X2 X3 : S1x3072.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__logits_kernel i (stage0_0 s0) (hstage0_0 s0) (stage0_1 s1) (hstage0_1 s1) (stage0_2 s2) (hstage0_2 s2)
            (stage0_3 s3) (hstage0_3 s3)) K := by
  fin_cases s0 <;> fin_cases s1 <;> fin_cases s2 <;> fin_cases s3
  · body_at cc0_stg0_0 cc0_stg1_0 cc0_stg2_0 cc0_stg3_0
  · body_at cc0_stg0_0 cc0_stg1_0 cc0_stg2_0 cc0_stg3_1
  · body_at cc0_stg0_0 cc0_stg1_0 cc0_stg2_1 cc0_stg3_0
  · body_at cc0_stg0_0 cc0_stg1_0 cc0_stg2_1 cc0_stg3_1
  · body_at cc0_stg0_0 cc0_stg1_1 cc0_stg2_0 cc0_stg3_0
  · body_at cc0_stg0_0 cc0_stg1_1 cc0_stg2_0 cc0_stg3_1
  · body_at cc0_stg0_0 cc0_stg1_1 cc0_stg2_1 cc0_stg3_0
  · body_at cc0_stg0_0 cc0_stg1_1 cc0_stg2_1 cc0_stg3_1

end Cert.Kernel.Hand

end
-- ==== Proof.KernelFrame.lean ====
/-
  The frame of `Kernel`: @main — the host lines, the one pipelined region (logits block = activations ·
  weight blockᵀ + bias block over 17 blocks of the vocabulary axis, the last overhanging the arrays), the host lines after
  it — runs, and every argument array ends as launched.

  The last block of the weight's, the bias's and the result's windows overhangs its array: the fetch lands the part
  inside the array and leaves the rest of the staging buffer at words nothing names, and the body's matrix product reads
  the whole buffers. So what the body leaves in the RESULT's staging buffer cannot be named from the arrays. A frame does
  not read the result array: the proof data below name what the body leaves in the three INPUT buffers (each as found)
  and FORGET the result's window; the library's relational frame launch then gives every input array at its entry
  contents and every buffer that bypasses the region, and that the later host lines do not write, as the region found it.
-/
import proofs.«154912_j14027363189411_1_alg».proof.Defs
import proofs.«154912_j14027363189411_1_alg».proof.Proof.Gen.Kernel.Frame
import proofs.«154912_j14027363189411_1_alg».proof.Proof.Gen.Pre_finite_inputs
import proofs.«154912_j14027363189411_1_alg».proof.Proof.KernelBody
import Idealize.ShloMosaic.Lib.Pipeline.Kit
import Idealize.ShloMosaic.Lib.Pipeline.FrameSuffix
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The windows the frame says nothing of: the result's (window 3). What the body leaves in its staging buffer is
    computed from words of the weight's and the bias's buffers past their arrays' end, which nothing names. -/
abbrev fgt : Fin 4 → Bool :=
  fun | 0 => false | 1 => false | 2 => false | 3 => true | ⟨_ + 4, h⟩ => absurd h (Nat.not_lt.2 (Nat.le_add_left _ _))

/-- The proof data of the one pipeline on device `c`'s TensorCore: the arrays as the region finds them; after the body
    the activations' buffer at its block, the weight's and the bias's at their blocks filled out past the arrays' end
    with a word nothing reads, the result's unnamed; the class invariant; nothing owed; full shares. -/
def dats (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => win0_1.fill (grid0.coords t) (fun _ => Scalar.ofBits .f32 0#32) (Gen.iblk m c 1 t)
    | ⟨2, _⟩ => win0_2.fill (grid0.coords t) (fun _ => Scalar.ofBits .f32 0#32) (Gen.iblk m c 2 t)
    | ⟨3, _⟩ => Dat.unnamed (3 : Fin 4) t
  Φ _ := Pipeline.ΦA spec0 c
  q _ := fullShare
  owed _ := 0

/-- What the body finds: the activations' buffer at its block, fetched there (the first point) or left there by the
    body (every later one); -/
theorem before_0 (c : Dev nD) (t : Fin cfg0.N) (d) : (dats m c).before (0 : Fin 4) t d = Gen.iblk m c 0 t :=
  Gen.before0_0_of m (dats m c) (by dsimp only [dats]) (fun _ => by dsimp only [dats]) t d
/-- the weight's and the bias's just fetched (they are at every point) — the block on the part inside the array, `d`
    elsewhere. -/
theorem before_1 (c : Dev nD) (t : Fin cfg0.N) (d) :
    (dats m c).before (1 : Fin 4) t d = win0_1.fill (grid0.coords t) d (Gen.iblk m c 1 t) := by
  unfold Dat.before; rw [if_pos (Gen.fetch0_1 t)]; rfl
theorem before_2 (c : Dev nD) (t : Fin cfg0.N) (d) :
    (dats m c).before (2 : Fin 4) t d = win0_2.fill (grid0.coords t) d (Gen.iblk m c 2 t) := by
  unfold Dat.before; rw [if_pos (Gen.fetch0_2 t)]; rfl

/-! ## The body obligation -/

/-- The library's body obligation with the result's window forgotten, from `sound_body` at the point's staging
    buffers: the three input buffers arrive as `before_0`, `before_1`, `before_2` say and the result's holding anything;
    the body leaves the inputs as found, which on the part inside the arrays is what `after` states, and the result's
    holding something. -/
theorem body_obligation (c : Dev nD) :
    BodyObligationLoose (dats m c) (defs₀ (F := F)) 𝒱₀ () Set.univ fgt := fun t => by
  rw [Gen.bigSep_W0, Gen.bigSep_W0]
  -- no point is idle, windows 1 to 3 are loose and window 3 forgotten (the `match`es reduce)
  simp only
  rw [show (dats m c).Φ t.succ = (dats m c).Φ t.castSucc from rfl,
    show (dats m c).owesAt () t.succ = (dats m c).owesAt () t.castSucc from rfl]
  iintro ⟨HΦ, Ho, ⟨%d0, H0⟩, ⟨%d1, H1⟩, ⟨%d2, H2⟩, ⟨%X3, H3⟩⟩
  rw [before_0 m c t d0, before_1 m c t d1, before_2 m c t d2]
  iapply (sound_body (F := F) c Set.univ (grid0.coords t) (cfg0.slots t 0) (cfg0.slots t 1) (cfg0.slots t 2) (cfg0.slots t 3)
    (Gen.iblk m c 0 t) (win0_1.fill (grid0.coords t) d1 (Gen.iblk m c 1 t)) (win0_2.fill (grid0.coords t) d2 (Gen.iblk m c 2 t)) X3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  -- the activations' buffer holds its block; the weight's and the bias's hold their blocks filled out with the `d` they
  -- came with, which on the part inside the array is what `after` states (`Window.cut_fill`); of the result's nothing is asked
  have h1 : win0_1.cut (grid0.coords t) ((dats m c).after 1 t) = Gen.iblk m c 1 t := win0_1.cut_fill _ _ _
  have h2 : win0_2.cut (grid0.coords t) ((dats m c).after 2 t) = Gen.iblk m c 2 t := win0_2.cut_fill _ _ _
  isplitl [H0]
  · iexact H0
  isplitl [H1]
  · iexists d1
    change _ ⊢ owns (c : Thread nD τ) (stage0_1 (cfg0.slots t 1)) fullShare (win0_1.fill (grid0.coords t) d1 (win0_1.cut (grid0.coords t) ((dats m c).after 1 t)))
    rw [h1]
  isplitl [H2]
  · iexists d2
    change _ ⊢ owns (c : Thread nD τ) (stage0_2 (cfg0.slots t 2)) fullShare (win0_2.fill (grid0.coords t) d2 (win0_2.cut (grid0.coords t) ((dats m c).after 2 t)))
    rw [h2]
  · iexists _; iexact H3

/-! ## The run, by the library's relational frame launch -/

/-- The buffers the host lines after the region write: the temporaries and the result of the log-softmax, and the
    broadcast's result. No argument array is among them. -/
def T : Finset (Ref sig .tc) :=
  {main_call1_cst, main_call1_v0, main_call1_cst_0, main_call1_v1, main_call1_v2, main_call1_v3, main_call1_v4,
    main_call1_v5, main_call1_v6, main_call1_cst_1, main_call1_v7, main_call1_v8, main_call1_v9, main_call1_v10,
    main_v72, main_v73}

/-- Each of those lines writes its own result buffer only, which is in `T`. -/
theorem sfx_T : ∀ ops ∈ ([hostOps1, hostOps1_1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals
      simp only [StableHlo.nullary_writes, StableHlo.unary_writes, StableHlo.binary_writes, Finset.mem_singleton] at hb
      obtain rfl := Proc.devRef_injective (τ := τ) _ hb
      decide
  · simp only [hostOps1_1, List.mem_cons, List.mem_nil_iff, or_false] at hop
    rcases hop with rfl
    simp only [StableHlo.nullary_writes, StableHlo.unary_writes, StableHlo.binary_writes, Finset.mem_singleton] at hb
    obtain rfl := Proc.devRef_injective (τ := τ) _ hb
    decide

-- the launch theorem's implicit arguments are found by unifying its conclusion with this one, which takes unfolding
-- plain definitions in a metavariable's type
set_option backward.isDefEq.respectTransparency.types false in
/-- @main runs: the host lines, the region over the relational reading of `dats` with the result's window forgotten,
    the host lines after it — to the relational frame post: every array of the pipeline at some contents it may hold
    after the write-backs, every other unscoped buffer outside `T` as the region found it. -/
theorem run : θ_run (defs (F := F)) (onTc (τ := τ) (main (F := F))) (s₀ m ρ)
    (RDat.FramePostR cfg0 (fun c => (dats m c).toRForget fgt) T (fun c b => Gen.V0 m c (Proc.devRef .tc b))) :=
  Pipeline.RDat.θ_run_frame_around_T cfgs 0 Gen.launch0 defs₀ 𝒱₀ (fun c => (dats m c).toRForget fgt) T m ρ main
    (fun c => (body_obligation m c).toRForget) (fun c w => by unfold RDat.share; split <;> rfl) (fun c t => rfl)
    (Gen.V0 m) [hostOps1, hostOps1_1] Gen.sfx_sub Gen.sfx_fresh Gen.sfx_keeps sfx_T (Gen.hmain m 𝒱₀)
    (fun c w => rfl) (fun c t => rfl)

/-! ## The frame -/

/-- THE FRAME of the program as printed: @main runs, and every argument array ends as launched. The weight (argument
    12) is window 1's array, an input of the pipeline: it ends at its contents at the region's entry, which no host line
    before the region writes. Every other argument bypasses the region, is written by no host line after it (it is not
    in `T`), and is written by none before it. -/
theorem frame : Cert.frame_Kernel := fun m g _ =>
  (θ_run defs _ _).mono (fun r h c =>
    ⟨((h c).2 main_arg0 (Finset.mem_sdiff.mpr ⟨Pipeline.mem_restRefs_of main_arg0 (by decide) (by decide), by decide⟩)).trans (Gen.V_main_arg0 m c),
      ((h c).2 main_arg1 (Finset.mem_sdiff.mpr ⟨Pipeline.mem_restRefs_of main_arg1 (by decide) (by decide), by decide⟩)).trans (Gen.V_main_arg1 m c),
      ((h c).2 main_arg2 (Finset.mem_sdiff.mpr ⟨Pipeline.mem_restRefs_of main_arg2 (by decide) (by decide), by decide⟩)).trans (Gen.V_main_arg2 m c),
      ((h c).2 main_arg3 (Finset.mem_sdiff.mpr ⟨Pipeline.mem_restRefs_of main_arg3 (by decide) (by decide), by decide⟩)).trans (Gen.V_main_arg3 m c),
      ((h c).2 main_arg4 (Finset.mem_sdiff.mpr ⟨Pipeline.mem_restRefs_of main_arg4 (by decide) (by decide), by decide⟩)).trans (Gen.V_main_arg4 m c),
      ((h c).2 main_arg5 (Finset.mem_sdiff.mpr ⟨Pipeline.mem_restRefs_of main_arg5 (by decide) (by decide), by decide⟩)).trans (Gen.V_main_arg5 m c),
      ((h c).2 main_arg6 (Finset.mem_sdiff.mpr ⟨Pipeline.mem_restRefs_of main_arg6 (by decide) (by decide), by decide⟩)).trans (Gen.V_main_arg6 m c),
      ((h c).2 main_arg7 (Finset.mem_sdiff.mpr ⟨Pipeline.mem_restRefs_of main_arg7 (by decide) (by decide), by decide⟩)).trans (Gen.V_main_arg7 m c),
      ((h c).2 main_arg8 (Finset.mem_sdiff.mpr ⟨Pipeline.mem_restRefs_of main_arg8 (by decide) (by decide), by decide⟩)).trans (Gen.V_main_arg8 m c),
      ((h c).2 main_arg9 (Finset.mem_sdiff.mpr ⟨Pipeline.mem_restRefs_of main_arg9 (by decide) (by decide), by decide⟩)).trans (Gen.V_main_arg9 m c),
      ((h c).2 main_arg10 (Finset.mem_sdiff.mpr ⟨Pipeline.mem_restRefs_of main_arg10 (by decide) (by decide), by decide⟩)).trans (Gen.V_main_arg10 m c),
      ((h c).2 main_arg11 (Finset.mem_sdiff.mpr ⟨Pipeline.mem_restRefs_of main_arg11 (by decide) (by decide), by decide⟩)).trans (Gen.V_main_arg11 m c),
      (RDat.FramePostR.arr_in h c (1 : Fin 4) rfl).trans (Gen.V_main_arg12 m c),
      ((h c).2 main_arg13 (Finset.mem_sdiff.mpr ⟨Pipeline.mem_restRefs_of main_arg13 (by decide) (by decide), by decide⟩)).trans (Gen.V_main_arg13 m c)⟩)
    (run (F := Bits) m g)

end Cert.Kernel.Hand

end
-- ==== Proof.IdealBody.lean ====
/-
  The kernel body's triple of `KernelIdeal`: the body of the one pallas_call — logits block = activations · weight
  blockᵀ + bias block — run on whichever staging buffers the pipeline hands it. Four whole loads (the fourth, of the
  result's buffer, dead) and one whole store: the three input buffers are left holding what they held and the result's
  buffer ends holding the payload `k0_pay1` of those contents. Generic in the float instance.
-/
import proofs.«154912_j14027363189411_1_alg».proof.Proof.Gen.KernelIdeal.Skeleton
import proofs.«154912_j14027363189411_1_alg».proof.Proof.Gen.KernelIdeal.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/- The body's triple at ONE choice of staging buffers, the four memrefs being the whole buffers `b0 … b3`: a load
   through the rectangle of a buffer's own sizes at zero offsets reads its contents, and the unmasked store through it
   overwrites them (`Memref.readAt_unit_zero`, `Memref.write_access_unit_zero_univ`); so the three inputs' buffers
   are handed back as found and the result's holds the payload of what the three held. The load of the result's
   buffer is dead: nothing reads what it returns. -/
set_option hygiene false in
local macro "body_at " b0:ident b1:ident b2:ident b3:ident : tactic => `(tactic| (
  have hz : (![0, 0] : Fin 2 → Nat) = fun _ => 0 := funext fun a => by fin_cases a <;> rfl
  have hr0 : (Memref.whole $b0 : Memref sig .tc _ _ _).view.readAt (Elt F) (Rect.unit (s := S1x1024) ![0, 0] S1x1024.size
      inb_S1x1024_S1x1024_0_0).toLoadRect = id := funext (Memref.readAt_unit_zero (Elt F) $b0 hz _)
  have hr1 : (Memref.whole $b1 : Memref sig .tc _ _ _).view.readAt (Elt F) (Rect.unit (s := S3072x1024) ![0, 0] S3072x1024.size
      inb_S3072x1024_S3072x1024_0_0).toLoadRect = id := funext (Memref.readAt_unit_zero (Elt F) $b1 hz _)
  have hr2 : (Memref.whole $b2 : Memref sig .tc _ _ _).view.readAt (Elt F) (Rect.unit (s := S1x3072) ![0, 0] S1x3072.size
      inb_S1x3072_S1x3072_0_0).toLoadRect = id := funext (Memref.readAt_unit_zero (Elt F) $b2 hz _)
  have hw3 : ∀ f w, (((Memref.whole $b3).access (Rect.unit (s := S1x3072) ![0, 0] S1x3072.size inb_S1x3072_S1x3072_0_0)) :
      View sig .tc _ _ _).write (Elt F) f w Finset.univ = w := Memref.write_access_unit_zero_univ (Elt F) $b3 hz _
  simp only [owns_whole_eq, cc0__logits_kernel_eq_skeleton]; unfold cc0__logits_kernel_skel
  simp only [Prog.lift, Prog.bind_op, Prog.bind_ret]
  iintro ⟨⟨⟨%f0, %hf0, H0⟩, ⟨%f1, %hf1, H1⟩, ⟨%f2, %hf2, H2⟩, ⟨%f3, %hf3, H3⟩⟩, Hk⟩
  sl_steps
  iapply Hk
  rw [hr0, hr1, hr2, hw3]
  subst hf0 hf1 hf2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  · iexists k0_pay1 f0 f1 f2; isplitr; · ipureintro; rfl
    iexact H3))

set_option maxHeartbeats 1600000 in
/-- The kernel body on staging buffers `s0` of the activations' window (its one), `s1` of the weight's, `s2` of the
    bias's and `s3` of the result's (each 0 or 1 by the point): the whole loads of the first three, the dead whole
    load of the result's, the whole store of the payload — the result's buffer ends holding `k0_pay1` of what the
    other three hold, those unchanged. -/
theorem sound_body (c : Dev nD) (E : Set ℕ) (i : grid0.Coords) (s0 : Fin 1) (s1 s2 s3 : Fin 2)
    (X0 : S1x1024.Idx → Elt F .f32) (X1 : S3072x1024.Idx → Elt F .f32) (X2 X3 : S1x3072.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__logits_kernel i (stage0_0 s0) (hstage0_0 s0) (stage0_1 s1) (hstage0_1 s1) (stage0_2 s2) (hstage0_2 s2)
            (stage0_3 s3) (hstage0_3 s3)) K := by
  fin_cases s0 <;> fin_cases s1 <;> fin_cases s2 <;> fin_cases s3
  · body_at cc0_stg0_0 cc0_stg1_0 cc0_stg2_0 cc0_stg3_0
  · body_at cc0_stg0_0 cc0_stg1_0 cc0_stg2_0 cc0_stg3_1
  · body_at cc0_stg0_0 cc0_stg1_0 cc0_stg2_1 cc0_stg3_0
  · body_at cc0_stg0_0 cc0_stg1_0 cc0_stg2_1 cc0_stg3_1
  · body_at cc0_stg0_0 cc0_stg1_1 cc0_stg2_0 cc0_stg3_0
  · body_at cc0_stg0_0 cc0_stg1_1 cc0_stg2_0 cc0_stg3_1
  · body_at cc0_stg0_0 cc0_stg1_1 cc0_stg2_1 cc0_stg3_0
  · body_at cc0_stg0_0 cc0_stg1_1 cc0_stg2_1 cc0_stg3_1

end Cert.KernelIdeal.Hand

end
-- ==== Proof.IdealPayload.lean ====
import proofs.«154912_j14027363189411_1_alg».proof.Proof.Gen.KernelIdeal.Skeleton
import Idealize.ShloMosaic.PureOps.Ideal.Laws
import Idealize.ShloMosaic.Lib.ValueIdx
import Idealize.ShloMosaic.Lib.Pipeline.Value

/-! # The block's result at a column, at the ideal values

The body stores `addf (matmul D (truncf x0) (truncf x1) 0) x2` where the record `D` contracts axis 1 of
the row vector `x0 : [1,1024]` with axis 1 of the weight block `x1 : [3072,1024]`. At the ideal values a
narrowing conversion is the identity and a matmul into the zero accumulator is the plain sum of products over
the contraction index, so column `j` of the result is the inner product of the row vector with ROW `j` of the
weight block, plus the bias entry `x2 (0, j)`. In particular column `j` reads row `j` of `x1` and no other
row. -/

noncomputable section

namespace Cert.KernelIdeal.Hand

open Cert.KernelIdeal Cert.KernelIdeal.Gen Idealize.ShloMosaic Idealize.ShloMosaic.ValueIdx

/-! ## The operand indices of the contraction, axis by axis

Output index `i = (r, c)`, contraction index `q` (one axis of extent 1024): the left operand is read at
`(r, q)` and the right operand at `(c, q)`. -/

/-- The left operand's free axis 0 follows the output's axis 0. -/
theorem lhs_dot_0 (i : S1x3072.Idx) (q : dot_S1x1024_S3072x1024_S1x3072_1_1_0_0_n_n.contr.Idx) :
    (dot_S1x1024_S3072x1024_S1x3072_1_1_0_0_n_n.lhsIdx i q 0).val = (i 0).val := by
  unfold DotDims.lhsIdx
  rw [dif_neg (show ¬(0 : Fin S1x1024.rank) ∈ dot_S1x1024_S3072x1024_S1x3072_1_1_0_0_n_n.lhsBatch by decide), dif_pos (show (0 : Fin S1x1024.rank) ∈ dot_S1x1024_S3072x1024_S1x3072_1_1_0_0_n_n.lhsNonContracting by decide)]
  rfl

/-- The left operand's contracted axis 1 is the contraction index. -/
theorem lhs_dot_1 (i : S1x3072.Idx) (q : dot_S1x1024_S3072x1024_S1x3072_1_1_0_0_n_n.contr.Idx) :
    (dot_S1x1024_S3072x1024_S1x3072_1_1_0_0_n_n.lhsIdx i q 1).val = (q ⟨0, by decide⟩).val :=
  dot_S1x1024_S3072x1024_S1x3072_1_1_0_0_n_n.lhsIdx_val_of_single rfl i q

/-- The right operand's free axis 0 follows the output's axis 1: column `c` reads row `c`. -/
theorem rhs_dot_0 (i : S1x3072.Idx) (q : dot_S1x1024_S3072x1024_S1x3072_1_1_0_0_n_n.contr.Idx) :
    (dot_S1x1024_S3072x1024_S1x3072_1_1_0_0_n_n.rhsIdx i q 0).val = (i 1).val := by
  unfold DotDims.rhsIdx
  rw [dif_neg (show ¬(0 : Fin S3072x1024.rank) ∈ dot_S1x1024_S3072x1024_S1x3072_1_1_0_0_n_n.rhsBatch by decide), dif_pos (show (0 : Fin S3072x1024.rank) ∈ dot_S1x1024_S3072x1024_S1x3072_1_1_0_0_n_n.rhsNonContracting by decide)]
  rfl

/-- The right operand's contracted axis 1 is the contraction index. -/
theorem rhs_dot_1 (i : S1x3072.Idx) (q : dot_S1x1024_S3072x1024_S1x3072_1_1_0_0_n_n.contr.Idx) :
    (dot_S1x1024_S3072x1024_S1x3072_1_1_0_0_n_n.rhsIdx i q 1).val = (q ⟨0, by decide⟩).val :=
  dot_S1x1024_S3072x1024_S1x3072_1_1_0_0_n_n.rhsIdx_val_of_single rfl i q

/-! ## The matmul into the zero accumulator, at a column -/

/-- Column `j` of `a · bᵀ` (contraction over the second axis of both) is `∑ k, a (0, k) * b (j, k)`. -/
theorem matmul_zero_apply (a : FVec Ideal S1x1024 .bf16) (b : FVec Ideal S3072x1024 .bf16) (j : Fin 3072) :
    matmul (F := Ideal) dot_S1x1024_S3072x1024_S1x3072_1_1_0_0_n_n none a b (constant (F := Ideal) S1x3072 .f32 0x00000000#32) (ix2 0 j)
      = ∑ k : Fin 1024, a (ix2 0 k) * b (ix2 j k) := by
  show FloatOps.matmul dot_S1x1024_S3072x1024_S1x3072_1_1_0_0_n_n none a b (constant (F := Ideal) S1x3072 .f32 0x00000000#32) (ix2 0 j) = _
  rw [Ideal.matmul_constant_zero_apply, ← Equiv.sum_comp (ValueIdx.contrEquiv1 dot_S1x1024_S3072x1024_S1x3072_1_1_0_0_n_n 1024 rfl rfl).symm]
  refine Finset.sum_congr rfl fun k _ => ?_
  have hk := ValueIdx.contrEquiv1_symm_val dot_S1x1024_S3072x1024_S1x3072_1_1_0_0_n_n 1024 rfl rfl k
  have el : dot_S1x1024_S3072x1024_S1x3072_1_1_0_0_n_n.lhsIdx (ix2 0 j) ((ValueIdx.contrEquiv1 dot_S1x1024_S3072x1024_S1x3072_1_1_0_0_n_n 1024 rfl rfl).symm k) = ix2 0 k := funext fun a => Fin.ext (by
    match a with
    | ⟨0, _⟩ => exact lhs_dot_0 _ _
    | ⟨1, _⟩ => exact (lhs_dot_1 _ _).trans hk)
  have er : dot_S1x1024_S3072x1024_S1x3072_1_1_0_0_n_n.rhsIdx (ix2 0 j) ((ValueIdx.contrEquiv1 dot_S1x1024_S3072x1024_S1x3072_1_1_0_0_n_n 1024 rfl rfl).symm k) = ix2 j k := funext fun a => Fin.ext (by
    match a with
    | ⟨0, _⟩ => exact rhs_dot_0 _ _
    | ⟨1, _⟩ => exact (rhs_dot_1 _ _).trans hk)
  rw [el, er]

/-! ## The payload at a column -/

/-- Column `j` of the stored block: the inner product of the row vector with row `j` of the weight block, plus
    the bias entry. Rows of `x1` other than `j` do not enter. -/
theorem pay_apply (x0 : Vec Ideal S1x1024 .f32) (x1 : Vec Ideal S3072x1024 .f32) (x2 : Vec Ideal S1x3072 .f32) (j : Fin 3072) :
    k0_pay1 (F := Ideal) x0 x1 x2 (ix2 0 j) = (∑ k : Fin 1024, x0 (ix2 0 k) * x1 (ix2 j k)) + x2 (ix2 0 j) := by
  unfold k0_pay1
  rw [addf_apply, shapeCast_self, shapeCast_self, matmul_zero_apply]
  rfl

end Cert.KernelIdeal.Hand

end
-- ==== Proof.IdealRun.lean ====
/-
  The idealized kernel program run to its values.

  One kernel region computes the logits  L[0, v] = Σ_k h[0, k] · Wo[v, k] + bo[v]  over a vocabulary axis of 50257
  in seventeen blocks of 3072 columns; the last block overhangs the arrays by 1967 columns. Three of the four
  windows are cut there: the weight matrix's block (rows 3072·t … of Wo), the bias row's block and the result's
  block (columns 3072·t …). What a cut fetch leaves in the staging buffer past the array's end is anything
  (`d1`, `d2` below), and only the part of the result's block inside the array is written back.

  The mathematics: at the extended reals the block product contracts the 1024 hidden coordinates, not the
  vocabulary axis, so column j of the result's block depends on ROW j of the weight block alone (`pay_apply`);
  a row inside the matrix is a row of Wo whatever the buffer held past the end (`fill1`, `fill2`); hence on the
  columns inside the array the body stores exactly the logits read through the block (`cut_pay_gen`), the
  seventeen blocks' parts inside the array cover every column, column v lying in block v / 3072 (`cover`), and
  after the last write-back the result array holds the logits of the arrays as the region found them
  (`final_logits`). `run_main` is the run of the whole program over these proof data; the frame claim is read off it.
-/
import proofs.«154912_j14027363189411_1_alg».proof.Defs
import proofs.«154912_j14027363189411_1_alg».proof.Proof.Gen.KernelIdeal.Frame
import proofs.«154912_j14027363189411_1_alg».proof.Proof.Gen.KernelIdeal.Skeleton
import proofs.«154912_j14027363189411_1_alg».proof.Proof.Gen.Pre_finite_inputs
import proofs.«154912_j14027363189411_1_alg».proof.Proof.IdealBody
import proofs.«154912_j14027363189411_1_alg».proof.Proof.IdealPayload
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

/-- The logits as one function of the row vector, the weight matrix and the bias row: entry (0, v) is the inner
    product of the vector with ROW v of the matrix, plus the bias entry. -/
def logits (h : Vec Ideal S1x1024 .f32) (W : Vec Ideal S50257x1024 .f32) (b : Vec Ideal S1x50257 .f32) : Vec Ideal S1x50257 .f32 :=
  fun i => (∑ k : Fin 1024, h (ix2 0 k) * W (ix2 (i 1) k)) + b (ix2 0 (i 1))

/-- The schedule over the grid: block `t` of the weight matrix starts at row `3072 · t`, of the bias row and of the
    result at column `3072 · t`; the row vector's one block is the whole array; and the part of a block inside its
    array has the same extent along the vocabulary axis for the three clipped windows. -/
theorem grid_facts : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_1.xsize (grid0.coords t) (0 : Fin 2) = win0_3.xsize (grid0.coords t) (1 : Fin 2)
    ∧ win0_1.xsize (grid0.coords t) (1 : Fin 2) = 1024
    ∧ win0_2.xsize (grid0.coords t) (0 : Fin 2) = 1
    ∧ win0_2.xsize (grid0.coords t) (1 : Fin 2) = win0_3.xsize (grid0.coords t) (1 : Fin 2)
    ∧ win0_3.xsize (grid0.coords t) (0 : Fin 2) = 1
    ∧ win0_3.xsize (grid0.coords t) (1 : Fin 2) ≤ 3072
    ∧ t.val * 3072 + win0_3.xsize (grid0.coords t) (1 : Fin 2) = min 50257 ((t.val + 1) * 3072) := by
  decide +kernel

/-- A filled block at an index the transfer moves holds the fetched value. -/
theorem fill_of_lt {G : Pipeline.Grid} (w : Window sig G) {α : Type} (i : G.Coords) (d : w.block.Idx → α) (g : (w.xblock i).Idx → α)
    (j : w.block.Idx) (h : ∀ a, (j a).val < w.xsize i a) : w.fill i d g j = g (fun a => ⟨(j a).val, h a⟩) := by
  unfold Window.fill; rw [dif_pos ((w.moved_iff i j).mpr h)]

set_option maxHeartbeats 1000000

section Blocks

variable (h : Vec Ideal S1x1024 .f32) (W : Vec Ideal S50257x1024 .f32) (b : Vec Ideal S1x50257 .f32)

/-- A column of the result's block inside the array is a column of the full block: its index in the block. -/
theorem xinj3 (t : Fin cfg0.N) (y : ((cfg0.win 3).xblock (cfg0.grid.coords t)).Idx) (hy1 : (y 1).val < 3072) :
    (cfg0.win 3).xinj (cfg0.grid.coords t) y = ix2 (0 : Fin 1) (⟨(y 1).val, hy1⟩ : Fin 3072) := by
  obtain ⟨-, -, -, -, -, -, -, -, -, -, -, -, x30, -, -⟩ := grid_facts t
  have hy0 : (y 0).val < win0_3.xsize (grid0.coords t) (0 : Fin 2) := (y 0).isLt
  funext a; apply Fin.ext
  match a with
  | ⟨0, _⟩ => show (y 0).val = 0; omega
  | ⟨1, _⟩ => rfl

/-- Column `j` of the result's block `t` is column `3072 · t + j` of the array. -/
theorem read3 (X : Vec Ideal S1x50257 .f32) (t : Fin cfg0.N) (y : ((cfg0.win 3).xblock (cfg0.grid.coords t)).Idx)
    (hv : t.val * 3072 + (y 1).val < 50257) :
    ((cfg0.win 3).blk t).view.read (Elt Ideal) X y = X (ix2 (0 : Fin 1) (⟨t.val * 3072 + (y 1).val, hv⟩ : Fin 50257)) := by
  obtain ⟨-, -, -, -, -, -, i30, i31, -, -, -, -, x30, -, -⟩ := grid_facts t
  have hy0 : (y 0).val < win0_3.xsize (grid0.coords t) (0 : Fin 2) := (y 0).isLt
  show X (((cfg0.win 3).blk t).view.emb y) = _
  refine congrArg X (funext fun a => Fin.ext ?_)
  match a with
  | ⟨0, _⟩ => show win0_3.index t (0 : Fin 2) * 1 + 1 * (y 0).val = 0; rw [i30]; omega
  | ⟨1, _⟩ => show win0_3.index t (1 : Fin 2) * 3072 + 1 * (y 1).val = t.val * 3072 + (y 1).val; rw [i31]; omega

/-- The row vector's one block is the whole vector. -/
theorem read0 (t : Fin cfg0.N) (k : Fin 1024) :
    ((cfg0.win 0).blk t).view.read (Elt Ideal) h (ix2 (0 : Fin 1) k) = h (ix2 0 k) := by
  obtain ⟨i00, i01, -, -, -, -, -, -, -, -, -, -, -, -, -⟩ := grid_facts t
  show h (((cfg0.win 0).blk t).view.emb (ix2 (0 : Fin 1) k)) = _
  refine congrArg h (funext fun a => Fin.ext ?_)
  match a with
  | ⟨0, _⟩ => show win0_0.index t (0 : Fin 2) * 1 + 1 * 0 = 0; rw [i00]
  | ⟨1, _⟩ => show win0_0.index t (1 : Fin 2) * 1024 + 1 * k.val = k.val; rw [i01]; omega

/-- Row `j` of the weight matrix's block `t`, when it lies inside the matrix, is row `3072 · t + j` of it, whatever
    the staging buffer held past the matrix's end. -/
theorem fill1 (t : Fin cfg0.N) (d1 : S3072x1024.Idx → EReal) (j : Fin 3072) (k : Fin 1024)
    (hj : j.val < win0_3.xsize (grid0.coords t) (1 : Fin 2)) (hv : t.val * 3072 + j.val < 50257) :
    (cfg0.win 1).fill (cfg0.grid.coords t) d1 (((cfg0.win 1).blk t).view.read (Elt Ideal) W) (ix2 j k)
      = W (ix2 (⟨t.val * 3072 + j.val, hv⟩ : Fin 50257) k) := by
  obtain ⟨-, -, i10, i11, -, -, -, -, x10, x11, -, -, -, -, -⟩ := grid_facts t
  rw [fill_of_lt (cfg0.win 1) (cfg0.grid.coords t) d1 _ (ix2 j k) (fun a => by
    match a with
    | ⟨0, _⟩ => show j.val < win0_1.xsize (grid0.coords t) (0 : Fin 2); omega
    | ⟨1, _⟩ => show k.val < win0_1.xsize (grid0.coords t) (1 : Fin 2); have := k.isLt; omega)]
  show W (((cfg0.win 1).blk t).view.emb _) = _
  refine congrArg W (funext fun a => Fin.ext ?_)
  match a with
  | ⟨0, _⟩ => show win0_1.index t (0 : Fin 2) * 3072 + 1 * j.val = t.val * 3072 + j.val; rw [i10]; omega
  | ⟨1, _⟩ => show win0_1.index t (1 : Fin 2) * 1024 + 1 * k.val = k.val; rw [i11]; omega

/-- Likewise for the bias row's block. -/
theorem fill2 (t : Fin cfg0.N) (d2 : S1x3072.Idx → EReal) (j : Fin 3072)
    (hj : j.val < win0_3.xsize (grid0.coords t) (1 : Fin 2)) (hv : t.val * 3072 + j.val < 50257) :
    (cfg0.win 2).fill (cfg0.grid.coords t) d2 (((cfg0.win 2).blk t).view.read (Elt Ideal) b) (ix2 (0 : Fin 1) j)
      = b (ix2 0 (⟨t.val * 3072 + j.val, hv⟩ : Fin 50257)) := by
  obtain ⟨-, -, -, -, i20, i21, -, -, -, -, x20, x21, -, -, -⟩ := grid_facts t
  rw [fill_of_lt (cfg0.win 2) (cfg0.grid.coords t) d2 _ (ix2 (0 : Fin 1) j) (fun a => by
    match a with
    | ⟨0, _⟩ => show 0 < win0_2.xsize (grid0.coords t) (0 : Fin 2); omega
    | ⟨1, _⟩ => show j.val < win0_2.xsize (grid0.coords t) (1 : Fin 2); omega)]
  show b (((cfg0.win 2).blk t).view.emb _) = _
  refine congrArg b (funext fun a => Fin.ext ?_)
  match a with
  | ⟨0, _⟩ => show win0_2.index t (0 : Fin 2) * 1 + 1 * 0 = 0; rw [i20]
  | ⟨1, _⟩ => show win0_2.index t (1 : Fin 2) * 3072 + 1 * j.val = t.val * 3072 + j.val; rw [i21]; omega

/-- What the body stores, on the part of the result's block inside the array, for ANY contents of the three input
    arrays: column `j` of block `t` is the inner product of the row vector with row `3072 · t + j` of the weight
    matrix plus that bias entry — the logits read through the block. The rows and columns of the two clipped input
    blocks past their arrays' ends (`d1`, `d2`: anything) do not enter. -/
theorem cut_pay_gen (t : Fin cfg0.N) (d1 : S3072x1024.Idx → EReal) (d2 : S1x3072.Idx → EReal) :
    (cfg0.win 3).cut (cfg0.grid.coords t)
        (k0_pay1 (F := Ideal) (((cfg0.win 0).blk t).view.read (Elt Ideal) h)
          ((cfg0.win 1).fill (cfg0.grid.coords t) d1 (((cfg0.win 1).blk t).view.read (Elt Ideal) W))
          ((cfg0.win 2).fill (cfg0.grid.coords t) d2 (((cfg0.win 2).blk t).view.read (Elt Ideal) b)))
      = ((cfg0.win 3).blk t).view.read (Elt Ideal) (logits h W b) := by
  obtain ⟨-, -, -, -, -, -, -, -, -, -, -, -, -, x31, xe⟩ := grid_facts t
  funext y
  have hy1' : (y 1).val < win0_3.xsize (grid0.coords t) (1 : Fin 2) := (y 1).isLt
  have hy1 : (y 1).val < 3072 := lt_of_lt_of_le hy1' x31
  have hv : t.val * 3072 + (y 1).val < 50257 := by omega
  show k0_pay1 (F := Ideal) _ _ _ ((cfg0.win 3).xinj (cfg0.grid.coords t) y) = _
  rw [xinj3 t y hy1, pay_apply, read3 (logits h W b) t y hv]
  show _ = (∑ k : Fin 1024, h (ix2 0 k) * W (ix2 (⟨t.val * 3072 + (y 1).val, hv⟩ : Fin 50257) k))
      + b (ix2 0 (⟨t.val * 3072 + (y 1).val, hv⟩ : Fin 50257))
  exact congrArg₂ (· + ·) (Finset.sum_congr rfl fun k _ => congrArg₂ (· * ·) (read0 h t k) (fill1 W t d1 ⟨(y 1).val, hy1⟩ k hy1' hv))
    (fill2 b t d2 ⟨(y 1).val, hy1⟩ hy1' hv)

/-- Every column of the logits lies in some block's part inside the array: column `v` in block `v / 3072`. -/
theorem cover (i : S1x50257.Idx) : ∃ t : Fin cfg0.N, (cfg0.win 3).flush t = true ∧ i ∈ ((cfg0.win 3).blk t).view.set := by
  have hi : (i 1).val < 50257 := (i 1).isLt
  have ht : (i 1).val / 3072 < 17 := by omega
  refine ⟨⟨(i 1).val / 3072, ht⟩, flush0_3 _, ?_⟩
  obtain ⟨-, -, -, -, -, -, i30, i31, -, -, -, -, x30, x31, xe⟩ := grid_facts ⟨(i 1).val / 3072, ht⟩
  have hs : ((cfg0.win 3).blk ⟨(i 1).val / 3072, ht⟩).view.set = ((cfg0.win 3).rect ⟨(i 1).val / 3072, ht⟩).set :=
    View.set_slice_whole main_v71 _
  rw [hs, Rect.mem_set_unit]
  intro a
  match a with
  | ⟨0, _⟩ =>
    show win0_3.index ⟨(i 1).val / 3072, ht⟩ (0 : Fin 2) * 1 ≤ (i 0).val
      ∧ (i 0).val < win0_3.index ⟨(i 1).val / 3072, ht⟩ (0 : Fin 2) * 1 + win0_3.xsize (grid0.coords ⟨(i 1).val / 3072, ht⟩) (0 : Fin 2)
    rw [i30, x30]; have h0 : (i 0).val < 1 := (i 0).isLt; omega
  | ⟨1, _⟩ =>
    show win0_3.index ⟨(i 1).val / 3072, ht⟩ (1 : Fin 2) * 3072 ≤ (i 1).val
      ∧ (i 1).val < win0_3.index ⟨(i 1).val / 3072, ht⟩ (1 : Fin 2) * 3072 + win0_3.xsize (grid0.coords ⟨(i 1).val / 3072, ht⟩) (1 : Fin 2)
    rw [i31]; dsimp only at xe ⊢; omega

end Blocks

variable (m : (ℓ : Loc nD τ sig) → Buf (Elt Ideal) ℓ) (ρ : Dev nD → PrngReg)

/-- The logits of the arrays as the region finds them. -/
def G (c : Dev nD) : Buf (Elt Ideal) ((c : Thread nD τ).loc main_v71) :=
  logits (V m c main_v69) (V m c main_arg12) (V m c main_v70)

/-- What the body leaves in each window's staging buffer at point `t`: the row vector's block; the weight block and the
    bias block as fetched, with a fixed filler past the arrays' ends; the logits read through the result's block, likewise filled. -/
def aft0 (c : Dev nD) (t : Fin cfg0.N) : (cfg0.win 0).block.Idx → Elt Ideal (cfg0.win 0).elt := iblk m c 0 t
def aft1 (c : Dev nD) (t : Fin cfg0.N) : (cfg0.win 1).block.Idx → Elt Ideal (cfg0.win 1).elt :=
  (cfg0.win 1).fill (cfg0.grid.coords t) (fun _ => (0 : EReal)) (iblk m c 1 t)
def aft2 (c : Dev nD) (t : Fin cfg0.N) : (cfg0.win 2).block.Idx → Elt Ideal (cfg0.win 2).elt :=
  (cfg0.win 2).fill (cfg0.grid.coords t) (fun _ => (0 : EReal)) (iblk m c 2 t)
def aft3 (c : Dev nD) (t : Fin cfg0.N) : (cfg0.win 3).block.Idx → Elt Ideal (cfg0.win 3).elt :=
  (cfg0.win 3).fill (cfg0.grid.coords t) (fun _ => (0 : EReal)) (((cfg0.win 3).blk t).view.read (Elt Ideal) (G m c))

set_option maxHeartbeats 1000000
/-- The proof data of the one pipeline: the arrays as the region finds them, the buffers' contents after the body as above,
    the class invariant, full shares, nothing owed. -/
def dats (_ : Fin 1) (c : Dev nD) : Dat τ (Elt Ideal) Unit ℕ (UR sig nD τ) ℕ cfg0 c where
  A w := V m c (Pipeline.arrRef spec0 w)
  after w t := match w with
    | ⟨0, _⟩ => aft0 m c t
    | ⟨1, _⟩ => aft1 m c t
    | ⟨2, _⟩ => aft2 m c t
    | ⟨3, _⟩ => aft3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after (0 : Fin 4) t = iblk m c 0 t := by
  dsimp only [dats]; rfl
theorem after_1 (c : Dev nD) (t : Fin cfg0.N) : (dats m 0 c).after (1 : Fin 4) t = aft1 m c t := by
  dsimp only [dats]
theorem after_2 (c : Dev nD) (t : Fin cfg0.N) : (dats m 0 c).after (2 : Fin 4) t = aft2 m c t := by
  dsimp only [dats]
theorem after_3 (c : Dev nD) (t : Fin cfg0.N) : (dats m 0 c).after (3 : Fin 4) t = aft3 m c t := by
  dsimp only [dats]

theorem before_0 (c : Dev nD) (t : Fin cfg0.N) (d) : (dats m 0 c).before (0 : Fin 4) t d = iblk m c 0 t :=
  before0_0_of m (dats m 0 c) (A_eq m c 0) (after_0 m c) t d

theorem before_1 (c : Dev nD) (t : Fin cfg0.N) (d) :
    (dats m 0 c).before (1 : Fin 4) t d = (cfg0.win 1).fill (cfg0.grid.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before (2 : Fin 4) t d = (cfg0.win 2).fill (cfg0.grid.coords t) d (iblk m c 2 t) := by
  unfold Dat.before; rw [if_pos (fetch0_2 t)]; unfold Dat.fetched Dat.blockOf iblk; rw [A_eq]

/-- `cut_pay_gen` at the arrays the region finds. -/
theorem cut_pay (c : Dev nD) (t : Fin cfg0.N) (d1 : S3072x1024.Idx → EReal) (d2 : S1x3072.Idx → EReal) :
    (cfg0.win 3).cut (cfg0.grid.coords t)
        (k0_pay1 (F := Ideal) (iblk m c 0 t) ((cfg0.win 1).fill (cfg0.grid.coords t) d1 (iblk m c 1 t)) ((cfg0.win 2).fill (cfg0.grid.coords t) d2 (iblk m c 2 t)))
      = ((cfg0.win 3).blk t).view.read (Elt Ideal) (G m c) := by
  unfold iblk G
  exact cut_pay_gen (V m c main_v69) (V m c main_arg12) (V m c main_v70) t d1 d2

/-- The body at every point: it finds the row vector's block, the two clipped blocks filled out by anything, and any
    contents in the result's buffer; it leaves the inputs as found and the result's buffer at the payload, which on the
    columns inside the array is the logits' block (`cut_pay`). -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_body (F := Ideal) c Set.univ (grid0.coords t) (cfg0.slots t 0) (cfg0.slots t 1) (cfg0.slots t 2) (cfg0.slots t 3)
    (iblk m c 0 t) ((cfg0.win 1).fill (cfg0.grid.coords t) d1 (iblk m c 1 t)) ((cfg0.win 2).fill (cfg0.grid.coords t) d2 (iblk m c 2 t))
    ((dats m 0 c).before 3 t d3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · rw [after_0]; iexact H0
  isplitl [H1]
  · iexists d1
    rw [after_1]; unfold aft1; rw [Window.cut_fill]; iexact H1
  isplitl [H2]
  · iexists d2
    rw [after_2]; unfold aft2; rw [Window.cut_fill]; iexact H2
  · iexists (k0_pay1 (F := Ideal) (iblk m c 0 t) ((cfg0.win 1).fill (cfg0.grid.coords t) d1 (iblk m c 1 t)) ((cfg0.win 2).fill (cfg0.grid.coords t) d2 (iblk m c 2 t)))
    rw [after_3]; unfold aft3; rw [Window.cut_fill, ← cut_pay m c t d1 d2, Window.fill_cut]; iexact H3

/-- Every weakly fair execution of the idealized kernel program terminates; the windows' arrays end at what the
    write-backs make of them and every other buffer at what the host lines after the region compute. -/
theorem run_main : θ_run defs (onTc (τ := τ) (main (F := Ideal))) (s₀ m ρ)
    (Pipeline.FramePost cfgs (dats m) 0 (Pipeline.afterTail₀ cfgs (dats m) 0 (V0 m) [hostOps1, hostOps1_1])) :=
  Pipeline.θ_run_frame_around cfgs (dats m) 0 launch0 defs₀ 𝒱₀ m ρ main
    (hbody := fun c => body_obligation m c)
    (hshare := fun c w => by unfold Dat.share; split <;> rfl) (howed := fun _ _ => rfl)
    (V₀ := V0 m) (opss := [hostOps1, hostOps1_1])
    (hsub := sfx_sub) (hfresh := sfx_fresh) (hkeep := sfx_keeps)
    (hmain := hmain m 𝒱₀) (hA := fun c w => A_eq m c w) (hΦ := fun _ _ => rfl)

/-- The idealized kernel program terminates without fault and leaves its arguments as launched. -/
theorem frame_ideal : Cert.frame_KernelIdeal := fun m ρ _ =>
  frame_of m ρ (dats m) (fun c w => A_eq m c w) (run_main m ρ)

/-- What each write-back writes is the logits read through the block. -/
theorem flushed_eq (c : Dev nD) (t : Fin cfg0.N) :
    (dats m 0 c).flushed 3 t = ((cfg0.win 3).blk t).view.read (Elt Ideal) (G m c) := by
  show (cfg0.win 3).cut (cfg0.grid.coords t) ((dats m 0 c).after 3 t) = _
  rw [after_3]; unfold aft3; rw [Window.cut_fill]

/-- After the seventeen write-backs the result array holds the logits. -/
theorem final_logits (c : Dev nD) : (dats m 0 c).arrAt 3 cfg0.N = G m c :=
  (dats m 0 c).arrAt_eq_of_cover 3 (G m c) (fun t _ => flushed_eq m c t) cover

end Cert.KernelIdeal.Hand

end
-- ==== Proof.KernelTail.lean ====
/- What the host operations after the region leave, in the idealized kernel program, for any proof data of the
   region: the log-probabilities are the log-softmax of the region's result array, the returned hidden state is the
   new hidden state with a leading axis put on, and the attention weights are untouched. And the reference's last
   operations are that same tail. -/
import proofs.«154912_j14027363189411_1_alg».proof.Proof.Gen.KernelIdeal.Frame
import proofs.«154912_j14027363189411_1_alg».proof.Proof.RefStages
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.StableHlo

variable {F : FTy → Type} [FloatOps F]

/-- The logarithm of the softmax along the last axis of a one-row array, operation by operation: the row's maximum
    (a maximum from minus infinity upward, then against minus infinity once more), the row less that maximum, the sum
    of the exponentials of the differences (from zero upward), and the differences less the logarithm of that sum. -/
def lsm (X : FVec F S1x50257 .f32) : FVec F S1x50257 .f32 :=
  have v0 : FVec F S1 .f32 := Host.reduce FloatOps.maximumf X (constant (F := F) S_ .f32 0xFF800000#32) reducesTo_S1x50257_S1_d1 h_S_
  have v1 : FVec F S1 .f32 := broadcastInDim S1 ![] bcast_S_S1 (constant (F := F) S_ .f32 0xFF800000#32)
  have v2 : FVec F S1 .f32 := maximumf v1 v0
  have v3 : FVec F S1x1 .f32 := broadcastInDim S1x1 ![0] bcast_S1_S1x1_0 v2
  have v4 : FVec F S1x50257 .f32 := broadcastInDim S1x50257 ![0, 1] bcast_S1x1_S1x50257_0_1 v3
  have v5 : FVec F S1x50257 .f32 := subf X v4
  have v6 : FVec F S1x50257 .f32 := Host.exp v5
  have v7 : FVec F S1 .f32 := Host.reduceAdd v6 (constant (F := F) S_ .f32 0x00000000#32) reducesTo_S1x50257_S1_d1 h_S_
  have v8 : FVec F S1x1 .f32 := broadcastInDim S1x1 ![0] bcast_S1_S1x1_0 v7
  have v9 : FVec F S1x1 .f32 := Host.log v8
  have v10 : FVec F S1x50257 .f32 := broadcastInDim S1x50257 ![0, 1] bcast_S1x1_S1x50257_0_1 v9
  subf v5 v10

/-! ## Reading a valuation at a typed reference

The log-softmax's operations are stated over references that carry the type of the value they hold, their functions
moved to the buffers' own types along the type equations. Reading a valuation back at the carried type makes each
operation's result its function of the operands' reads, with no transport left. -/

namespace Tail

variable {T Tx Ta Tb Ty : BufTy}

/-- What a valuation holds at a typed reference, read at the value's own type. -/
def rd (x : TRef sig T) (V : Valuation τ sig (Elt F)) : T.Contents (Elt F) :=
  x.ofBuf (V (Proc.devRef .tc x.ref))

/-- Moving contents to the buffer's type and back is the identity. -/
theorem ofBuf_toBuf (x : TRef sig T) (v : T.Contents (Elt F)) : x.ofBuf (x.toBuf v) = v := by
  obtain ⟨r, h, h2, h3⟩ := x
  subst h
  rfl

/-- A constant's operation leaves the constant at its result. -/
theorem rd_nullary (y : Ref sig .tc) (hy : y.ty = Ty) (hy2 hy3) (v : Ty.Contents (Elt F)) (V : Valuation τ sig (Elt F)) :
    rd (TRef.of y hy hy2 hy3) ((TRef.nullary (TRef.of y hy hy2 hy3) v : HloOp τ sig (Elt F)).result V) = v := by
  unfold rd
  rw [nullary_result]
  exact ofBuf_toBuf _ v

/-- A one-operand operation leaves its function of the operand at its result. -/
theorem rd_unary (x y : Ref sig .tc) (hx : x.ty = Tx) (hx2 hx3) (hy : y.ty = Ty) (hy2 hy3)
    (f : Tx.Contents (Elt F) → Ty.Contents (Elt F)) (V : Valuation τ sig (Elt F)) :
    rd (TRef.of y hy hy2 hy3) ((TRef.unary (TRef.of x hx hx2 hx3) (TRef.of y hy hy2 hy3) f : HloOp τ sig (Elt F)).result V)
      = f (rd (TRef.of x hx hx2 hx3) V) := by
  unfold rd
  rw [unary_result]
  exact ofBuf_toBuf _ _

/-- A two-operand operation leaves its function of the operands at its result. -/
theorem rd_binary (a b y : Ref sig .tc) (ha : a.ty = Ta) (ha2 ha3) (hb : b.ty = Tb) (hb2 hb3) (hy : y.ty = Ty) (hy2 hy3)
    (f : Ta.Contents (Elt F) → Tb.Contents (Elt F) → Ty.Contents (Elt F)) (V : Valuation τ sig (Elt F)) :
    rd (TRef.of y hy hy2 hy3)
        ((TRef.binary (TRef.of a ha ha2 ha3) (TRef.of b hb hb2 hb3) (TRef.of y hy hy2 hy3) f : HloOp τ sig (Elt F)).result V)
      = f (rd (TRef.of a ha ha2 ha3) V) (rd (TRef.of b hb hb2 hb3) V) := by
  unfold rd
  rw [binary_result]
  exact ofBuf_toBuf _ _

/-- An operation leaves every buffer but its result as it was. -/
theorem rd_nullary_ne (r : Ref sig .tc) (hr : r.ty = T) (hr2 hr3) (y' : TRef sig Ty) (v : Ty.Contents (Elt F))
    (V : Valuation τ sig (Elt F)) (h : r ≠ y'.ref) :
    rd (TRef.of r hr hr2 hr3) ((TRef.nullary y' v : HloOp τ sig (Elt F)).result V) = rd (TRef.of r hr hr2 hr3) V := by
  unfold rd
  rw [nullary_result_ne (h := h)]

theorem rd_unary_ne (r : Ref sig .tc) (hr : r.ty = T) (hr2 hr3) (x' : TRef sig Tx) (y' : TRef sig Ty)
    (f : Tx.Contents (Elt F) → Ty.Contents (Elt F)) (V : Valuation τ sig (Elt F)) (h : r ≠ y'.ref) :
    rd (TRef.of r hr hr2 hr3) ((TRef.unary x' y' f : HloOp τ sig (Elt F)).result V) = rd (TRef.of r hr hr2 hr3) V := by
  unfold rd
  rw [unary_result_ne (h := h)]

theorem rd_binary_ne (r : Ref sig .tc) (hr : r.ty = T) (hr2 hr3) (a' : TRef sig Ta) (b' : TRef sig Tb) (y' : TRef sig Ty)
    (f : Ta.Contents (Elt F) → Tb.Contents (Elt F) → Ty.Contents (Elt F)) (V : Valuation τ sig (Elt F)) (h : r ≠ y'.ref) :
    rd (TRef.of r hr hr2 hr3) ((TRef.binary a' b' y' f : HloOp τ sig (Elt F)).result V) = rd (TRef.of r hr hr2 hr3) V := by
  unfold rd
  rw [binary_result_ne (h := h)]

/-- The same of a one-operand operation over bare references. -/
theorem rd_unary_ne' (r : Ref sig .tc) (hr : r.ty = T) (hr2 hr3) (x y : Ref sig .tc)
    (f : x.ty.Contents (Elt F) → y.ty.Contents (Elt F)) (hx hy) (V : Valuation τ sig (Elt F)) (h : r ≠ y) :
    rd (TRef.of r hr hr2 hr3) ((unary (τ := τ) x y f hx hy).result V) = rd (TRef.of r hr hr2 hr3) V := by
  unfold rd
  rw [unary_result_ne (h := h)]

/-- Any buffer, read at its own type. -/
theorem rd_of (r : Ref sig .tc) (h2 h3) (V : Valuation τ sig (Elt F)) :
    V (Proc.devRef .tc r) = rd (TRef.of r rfl h2 h3) V := rfl

/-- The log-probabilities' buffer, read at its type. -/
theorem rd_v72 (V : Valuation τ sig (Elt F)) :
    V (Proc.devRef .tc main_v72) = rd (T := ⟨S1x50257, .f32⟩) (TRef.of main_v72) V := rfl

end Tail

/-! ## The tail's values -/

section TailValues

open Tail

variable (m : (ℓ : Loc nD τ sig) → Buf (Elt F) ℓ)
  (dats : (p : Fin 1) → (c : Dev nD) → Dat τ (Elt F) Unit ℕ (UR sig nD τ) ℕ (cfgs p) c) (c : Dev nD)

/-- After the region the log-probabilities are the log-softmax of what the region left in its result array. -/
theorem tail_logprobs :
    Pipeline.afterTail₀ cfgs dats 0 (Gen.V0 m) [hostOps1, hostOps1_1] c main_v72 = lsm ((dats 0 c).arrAt 3 cfg0.N) := by
  unfold Pipeline.afterTail₀
  generalize hW : Pipeline.withArrays (cfgs 0).spec c (Gen.V0 m c) (fun w => (dats 0 c).arrAt w (cfgs 0).N) = W
  have h71' : W (Proc.devRef .tc main_v71) = (dats 0 c).arrAt 3 cfg0.N := by
    rw [← hW]; exact Pipeline.withArrays_arr spec0 launch0.win.arr_inj c _ _ 3
  have h71 : rd (T := ⟨S1x50257, .f32⟩) (TRef.of main_v71) W = (dats 0 c).arrAt 3 cfg0.N := h71'
  refine (rd_v72 _).trans ?_
  simp only [hostOps1, hostOps1_1, List.flatten_cons, List.flatten_nil, List.append_nil, List.cons_append, List.nil_append]
  simp (disch := decide) only [after_cons, after_nil, rd_nullary, rd_unary, rd_binary, rd_nullary_ne, rd_unary_ne,
    rd_binary_ne, rd_unary_ne']
  rw [h71]
  rfl

/-- After the region the returned hidden state is the new hidden state with a leading axis of size one put on:
    the log-softmax's operations write neither, and the region leaves its whole input window as it found it. -/
theorem tail_hnew (hA : ∀ c w, (dats 0 c).A w = Gen.V m c (Pipeline.arrRef spec0 w)) :
    Pipeline.afterTail₀ cfgs dats 0 (Gen.V0 m) [hostOps1, hostOps1_1] c main_v73
      = broadcastInDim S1x1x1024 ![1, 2] bcast_S1x1024_S1x1x1024_1_2 (Gen.V m c main_v69) := by
  unfold Pipeline.afterTail₀
  generalize hW : Pipeline.withArrays (cfgs 0).spec c (Gen.V0 m c) (fun w => (dats 0 c).arrAt w (cfgs 0).N) = W
  have h69 : W (Proc.devRef .tc main_v69) = Gen.V m c main_v69 := by
    rw [← hW]
    exact (Pipeline.withArrays_arr spec0 launch0.win.arr_inj c _ _ 0).trans (((dats 0 c).arrAt_in 0 rfl _).trans (hA c 0))
  simp only [hostOps1, hostOps1_1, List.flatten_cons, List.flatten_nil, List.append_nil, List.cons_append, List.nil_append,
    after_cons, after_nil]
  rw [unary_result]
  refine congrArg (broadcastInDim S1x1x1024 ![1, 2] bcast_S1x1024_S1x1x1024_1_2 : (⟨S1x1024, .f32⟩ : BufTy).Contents (Elt F) → (⟨S1x1x1024, .f32⟩ : BufTy).Contents (Elt F)) ((rd_of main_v69 (by decide) rfl _).trans ?_)
  simp (disch := decide) only [rd_nullary_ne, rd_unary_ne, rd_binary_ne]
  exact h69

/-- After the region the attention weights are as the region found them: no operation after it writes them and no
    window stages them. -/
theorem tail_weights :
    Pipeline.afterTail₀ cfgs dats 0 (Gen.V0 m) [hostOps1, hostOps1_1] c main_v25 = Gen.V m c main_v25 := by
  unfold Pipeline.afterTail₀
  generalize hW : Pipeline.withArrays (cfgs 0).spec c (Gen.V0 m c) (fun w => (dats 0 c).arrAt w (cfgs 0).N) = W
  have h25 : W (Proc.devRef .tc main_v25) = Gen.V m c main_v25 := by
    rw [← hW]
    exact Pipeline.withArrays_of_ne _ c (V0 m c) _ main_v25 (by exact (by decide : ∀ w, Pipeline.arrRef spec0 w ≠ main_v25))
  refine (rd_of main_v25 (by decide) rfl _).trans ?_
  simp only [hostOps1, hostOps1_1, List.flatten_cons, List.flatten_nil, List.append_nil, List.cons_append, List.nil_append,
    after_cons, after_nil]
  simp (disch := decide) only [rd_nullary_ne, rd_unary_ne, rd_binary_ne, rd_unary_ne']
  exact h25

end TailValues

/-! ## The reference's tail is the same tail

The reference program's log-softmax is the same fifteen operations over the same literal shapes, and its returned
hidden state the same broadcast: the two sides differ only in the namespace their shape abbreviations and shape facts
are printed in, which unfolding and proof irrelevance identify. -/

/-- The log-softmax of the reference's logits is the reference's log-probabilities. -/
theorem lsm_ref (x0 : (⟨Cert.ReferenceIdeal.S1, .i32⟩ : BufTy).Contents (Elt F))
    (x1 : (⟨Cert.ReferenceIdeal.S1x1x1024, .f32⟩ : BufTy).Contents (Elt F))
    (x2 : (⟨Cert.ReferenceIdeal.S512x1024, .f32⟩ : BufTy).Contents (Elt F))
    (x3 : (⟨Cert.ReferenceIdeal.S50257x1024, .f32⟩ : BufTy).Contents (Elt F))
    (x4 : (⟨Cert.ReferenceIdeal.S512x2048, .f32⟩ : BufTy).Contents (Elt F))
    (x5 : (⟨Cert.ReferenceIdeal.S512, .f32⟩ : BufTy).Contents (Elt F))
    (x6 : (⟨Cert.ReferenceIdeal.S1024x2048, .f32⟩ : BufTy).Contents (Elt F))
    (x7 : (⟨Cert.ReferenceIdeal.S1024, .f32⟩ : BufTy).Contents (Elt F))
    (x8 x9 : (⟨Cert.ReferenceIdeal.S3072x1024, .f32⟩ : BufTy).Contents (Elt F))
    (x10 x11 : (⟨Cert.ReferenceIdeal.S3072, .f32⟩ : BufTy).Contents (Elt F))
    (x12 : (⟨Cert.ReferenceIdeal.S50257x1024, .f32⟩ : BufTy).Contents (Elt F))
    (x13 : (⟨Cert.ReferenceIdeal.S50257, .f32⟩ : BufTy).Contents (Elt F)) :
    lsm (Cert.ReferenceIdeal.Read.val_main_v75 (F := F) x0 x1 x2 x3 x4 x5 x6 x7 x8 x9 x10 x11 x12 x13)
      = Cert.ReferenceIdeal.Read.val_main_v76 (F := F) x0 x1 x2 x3 x4 x5 x6 x7 x8 x9 x10 x11 x12 x13 := rfl

/-- The reference's new hidden state with a leading axis of size one put on is the reference's returned hidden state. -/
theorem hnew_ref (x0 : (⟨Cert.ReferenceIdeal.S1, .i32⟩ : BufTy).Contents (Elt F))
    (x1 : (⟨Cert.ReferenceIdeal.S1x1x1024, .f32⟩ : BufTy).Contents (Elt F))
    (x2 : (⟨Cert.ReferenceIdeal.S512x1024, .f32⟩ : BufTy).Contents (Elt F))
    (x3 : (⟨Cert.ReferenceIdeal.S50257x1024, .f32⟩ : BufTy).Contents (Elt F))
    (x4 : (⟨Cert.ReferenceIdeal.S512x2048, .f32⟩ : BufTy).Contents (Elt F))
    (x5 : (⟨Cert.ReferenceIdeal.S512, .f32⟩ : BufTy).Contents (Elt F))
    (x6 : (⟨Cert.ReferenceIdeal.S1024x2048, .f32⟩ : BufTy).Contents (Elt F))
    (x7 : (⟨Cert.ReferenceIdeal.S1024, .f32⟩ : BufTy).Contents (Elt F))
    (x8 x9 : (⟨Cert.ReferenceIdeal.S3072x1024, .f32⟩ : BufTy).Contents (Elt F))
    (x10 x11 : (⟨Cert.ReferenceIdeal.S3072, .f32⟩ : BufTy).Contents (Elt F)) :
    broadcastInDim S1x1x1024 ![1, 2] bcast_S1x1024_S1x1x1024_1_2
        (Cert.ReferenceIdeal.Read.val_main_v71 (F := F) x0 x1 x2 x3 x4 x5 x6 x7 x8 x9 x10 x11)
      = Cert.ReferenceIdeal.Read.val_main_v77 (F := F) x0 x1 x2 x3 x4 x5 x6 x7 x8 x9 x10 x11 := rfl

end Cert.KernelIdeal.Hand

end
-- ==== Proof.IdealValues.lean ====
/-
  The idealized kernel program's three results, read off its run.

  After the region the program applies log-softmax to the result array, which by then holds the logits of the
  arrays the region found; it broadcasts the new hidden state computed before the region; and the attention weights,
  also computed before the region, are written by nothing later. The arguments are as launched.
-/
import proofs.«154912_j14027363189411_1_alg».proof.Proof.IdealRun
import proofs.«154912_j14027363189411_1_alg».proof.Proof.KernelTail

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

set_option maxHeartbeats 1000000 in
/-- Every weakly fair execution of the idealized kernel program terminates with the log-probabilities at the
    log-softmax of the logits, the returned hidden state at the broadcast of the one the host lines computed before
    the region, the attention weights as those lines left them, and the arguments unchanged. -/
theorem run_results : θ_run defs (onTc (τ := τ) (main (F := Ideal))) ⟨m, fun _ => 0, ρ⟩ (fun r => ∀ c : Dev nD,
      r.2.mem ((c.tc : Thread nD τ).loc main_v72) = lsm (F := Ideal) (G m c)
      ∧ r.2.mem ((c.tc : Thread nD τ).loc main_v73)
          = broadcastInDim S1x1x1024 ![1, 2] bcast_S1x1024_S1x1x1024_1_2 (V m c main_v69)
      ∧ r.2.mem ((c.tc : Thread nD τ).loc main_v25) = V m c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      ((h c).2 main_v72 (Pipeline.mem_restRefs_of main_v72 (by decide) (by decide))).trans
        ((tail_logprobs m (dats m) c).trans (congrArg (lsm (F := Ideal)) (final_logits m c))),
      ((h c).2 main_v73 (Pipeline.mem_restRefs_of main_v73 (by decide) (by decide))).trans
        (tail_hnew m (dats m) c (fun c w => A_eq m c w)),
      ((h c).2 main_v25 (Pipeline.mem_restRefs_of main_v25 (by decide) (by decide))).trans (tail_weights m (dats m) c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      ((h c).1 1).trans (((dats m 0 c).arrAt_in 1 rfl _).trans ((A_eq m c 1).trans (V_main_arg12 m c))),
      (((h c).2 main_arg13 (Pipeline.mem_restRefs_of main_arg13 (by decide) (by decide))).trans (W_main_arg13 m (dats m) c))⟩) (run_main m ρ)

end Cert.KernelIdeal.Hand

end
-- ==== Proof.KernelPrefix.lean ====
import proofs.«154912_j14027363189411_1_alg».proof.Proof.Gen.KernelIdeal.Frame
import proofs.«154912_j14027363189411_1_alg».proof.Proof.RefStages
import Idealize.ShloMosaic.Lib.StableHlo.Run
import Idealize.ShloMosaic.Lib.ValueLayout

/-!
# The buffers the idealized kernel program's region finds, as the reference's staged functions

Before its one kernel region the kernel program runs the same host operations as the reference: the embedding
gather, the attention softmax and the GRU cell. Each buffer those operations write is therefore, as a pure
term of the arguments of `@main`, the very term the reference's stage function builds; the only difference is
that the kernel program reshapes the incoming hidden state once and reads that buffer three times, where the
reference reshapes it three times: three spellings of one term.

* `V_hnew`: the new hidden state (the kernel program's `main_v69`, the reference's `main_v71`).
* `V_weights`: the attention weights (`main_v25` in both programs).
* `V_bias`, `V_bias_apply`: the output bias as a one-row matrix, `main_v70`, is the reshape of `main_arg13`;
  at `(0, j)` it reads the bias at `j`.

The two sides are written over two copies of the same literal shapes and dimension records, one per program,
so each equation holds by unfolding definitions alone.
-/

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

set_option maxRecDepth 8192 in
set_option maxHeartbeats 4000000 in
/-- The new hidden state the region reads through its first window is the reference's `h_new`: the same
    composed term of the twelve arguments the recurrent cell depends on. -/
theorem V_hnew :
    Gen.V m c main_v69
      = Cert.ReferenceIdeal.Read.val_main_v71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  dsimp only [Gen.V, Gen.V0]
  simp only [Gen.hostOps0, Gen.hostOps0_1, Gen.hostOps0_2, List.flatten_cons, List.flatten_nil, List.append_nil,
    List.cons_append, List.nil_append]
  after_results_simp
  chain_rfl

set_option maxRecDepth 8192 in
set_option maxHeartbeats 4000000 in
/-- The attention weights are the reference's: the softmax of the same scores of the same five arguments. -/
theorem V_weights :
    Gen.V m c main_v25
      = Cert.ReferenceIdeal.Read.val_main_v25 (m ((c : Thread nD τ).loc main_arg0)) (m ((c : Thread nD τ).loc main_arg1)) (m ((c : Thread nD τ).loc main_arg3)) (m ((c : Thread nD τ).loc main_arg4)) (m ((c : Thread nD τ).loc main_arg5)) := by
  dsimp only [Gen.V, Gen.V0]
  simp only [Gen.hostOps0, Gen.hostOps0_1, Gen.hostOps0_2, List.flatten_cons, List.flatten_nil, List.append_nil,
    List.cons_append, List.nil_append]
  after_results_simp
  chain_rfl

/-- The bias row the region reads through its third window is the bias vector reshaped to one row. -/
theorem V_bias :
    Gen.V m c main_v70 = shapeCast S1x50257 (m ((c : Thread nD τ).loc main_arg13)) shapeCasts_S50257_S1x50257 := by
  dsimp only [Gen.V, Gen.V0]
  simp only [Gen.hostOps0, Gen.hostOps0_1, Gen.hostOps0_2, List.flatten_cons, List.flatten_nil, List.append_nil,
    List.cons_append, List.nil_append]
  after_results_simp
  rfl

open Idealize.ShloMosaic.ValueIdx in
/-- Read at column `j` of its one row, the bias row is the bias vector at `j`. -/
theorem V_bias_apply (j : Fin 50257) :
    Gen.V m c main_v70 (ix2 (0 : Fin 1) j) = m ((c : Thread nD τ).loc main_arg13) (ix1 j) := by
  rw [V_bias]
  exact shapeCast_a_1a_apply _ _ 0 j

end Cert.KernelIdeal.Hand

end
-- ==== Proof.RefLogits.lean ====
import proofs.«154912_j14027363189411_1_alg».proof.Proof.RefStages
import Idealize.ShloMosaic.Lib.ValueIdx

/-! The reference's logits, read at an index.

The reference computes `logits = h_new · Woᵀ + bo`: it transposes `Wo` (50257 × 1024) to 1024 × 50257, contracts the
1 × 1024 row `h_new` against it, and adds `bo` broadcast along the leading axis of size one. Entry `(0, v)` of the
result is therefore the inner product of `h_new` with ROW `v` of `Wo`, plus `bo v`. -/

open scoped BigOperators

noncomputable section

namespace Cert.ReferenceIdeal.Hand

open Cert.ReferenceIdeal Cert.ReferenceIdeal.Gen Cert.ReferenceIdeal.Read Idealize.ShloMosaic Idealize.ShloMosaic.ValueIdx

/-- The left operand of the contraction is read at `(0, k)`: the result's leading coordinate ranges over `Fin 1`. -/
theorem lidx_logits (i : S1x50257.Idx) (k : Fin 1024) :
    lidx_main_v73 i k = (ix2 (0 : Fin 1) k : S1x1024.Idx) :=
  funext fun a => Fin.ext (by
    match a with
    | ⟨0, _⟩ => exact Nat.lt_one_iff.mp (i 0).isLt
    | ⟨1, _⟩ => rfl)

/-- The transpose reads `Wo` at `(v, k)` where the contraction reads its right operand at `(k, v)`. -/
theorem ridx_logits (i : S1x50257.Idx) (k : Fin 1024) :
    idx_main_v72 (ridx_main_v73 i k) = (ix2 (i 1) k : S50257x1024.Idx) :=
  funext fun a => Fin.ext (by
    match a with
    | ⟨0, _⟩ => rfl
    | ⟨1, _⟩ => rfl)

/-- The broadcast of `bo` reads it at the result's second coordinate. -/
theorem bidx_logits (i : S1x50257.Idx) :
    idx_main_v74 i = (ix1 (i 1) : S50257.Idx) :=
  funext fun a => Fin.ext (by
    match a with
    | ⟨0, _⟩ => rfl)

/-- Entry `(0, v)` of the reference's logits is `∑ k, h_new (0, k) * Wo (v, k) + bo v`. -/
theorem logits_apply (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S50257x1024, .f32⟩ : BufTy).Contents (Elt Ideal)) (x13 : (⟨S50257, .f32⟩ : BufTy).Contents (Elt Ideal)) (i : S1x50257.Idx) :
    val_main_v75 (F := Ideal) x0 x1 x2 x3 x4 x5 x6 x7 x8 x9 x10 x11 x12 x13 i
      = (∑ k : Fin 1024, val_main_v71 (F := Ideal) x0 x1 x2 x3 x4 x5 x6 x7 x8 x9 x10 x11 (ix2 0 k) * x12 (ix2 (i 1) k))
          + x13 (ix1 (i 1)) := by
  rw [val_main_v75_apply, val_main_v73_apply, val_main_v74_apply, bidx_logits, Ideal.addf_def]
  refine congrArg (· + x13 (ix1 (i 1))) (Finset.sum_congr rfl fun k _ => ?_)
  rw [val_main_v72_apply, lidx_logits, ridx_logits]

end Cert.ReferenceIdeal.Hand
-- ==== Proof.LibTypedReads.lean ====
/-
  Reading a valuation at a typed reference.

  A module-local function's operations are stated over references that carry the type of the value they hold, their
  functions moved to the buffers' own types along the type equations. Reading a valuation back at the carried type
  makes each operation's result its function of the operands' reads, with no transport left: a constant leaves the
  constant, a one- or two-operand operation its function of what its operands held, and every operation leaves the
  buffers it does not write as they were. With these a line of such operations is evaluated by one simplification
  pass, for any signature and any values.
-/
import Idealize.ShloMosaic.Lib.StableHlo.Run

noncomputable section

namespace Idealize.ShloMosaic.StableHlo.TypedRead

open Idealize.ShloMosaic Idealize.ShloMosaic.StableHlo

variable {τ : Topo} {sig : RefSig} {Val : EltTy → Type}

variable {T Tx Ta Tb Ty : BufTy}

/-- What a valuation holds at a typed reference, read at the value's own type. -/
def rd (x : TRef sig T) (V : Valuation τ sig Val) : T.Contents Val :=
  x.ofBuf (V (Proc.devRef .tc x.ref))

/-- Moving contents to the buffer's type and back is the identity. -/
theorem ofBuf_toBuf (x : TRef sig T) (v : T.Contents Val) : x.ofBuf (x.toBuf v) = v := by
  obtain ⟨r, h, h2, h3⟩ := x
  subst h
  rfl

/-- A constant's operation leaves the constant at its result. -/
theorem rd_nullary (y : Ref sig .tc) (hy : y.ty = Ty) (hy2 hy3) (v : Ty.Contents Val) (V : Valuation τ sig Val) :
    rd (TRef.of y hy hy2 hy3) ((TRef.nullary (TRef.of y hy hy2 hy3) v : HloOp τ sig Val).result V) = v := by
  unfold rd
  rw [nullary_result]
  exact ofBuf_toBuf _ v

/-- A one-operand operation leaves its function of the operand at its result. -/
theorem rd_unary (x y : Ref sig .tc) (hx : x.ty = Tx) (hx2 hx3) (hy : y.ty = Ty) (hy2 hy3)
    (f : Tx.Contents Val → Ty.Contents Val) (V : Valuation τ sig Val) :
    rd (TRef.of y hy hy2 hy3) ((TRef.unary (TRef.of x hx hx2 hx3) (TRef.of y hy hy2 hy3) f : HloOp τ sig Val).result V)
      = f (rd (TRef.of x hx hx2 hx3) V) := by
  unfold rd
  rw [unary_result]
  exact ofBuf_toBuf _ _

/-- A two-operand operation leaves its function of the operands at its result. -/
theorem rd_binary (a b y : Ref sig .tc) (ha : a.ty = Ta) (ha2 ha3) (hb : b.ty = Tb) (hb2 hb3) (hy : y.ty = Ty) (hy2 hy3)
    (f : Ta.Contents Val → Tb.Contents Val → Ty.Contents Val) (V : Valuation τ sig Val) :
    rd (TRef.of y hy hy2 hy3)
        ((TRef.binary (TRef.of a ha ha2 ha3) (TRef.of b hb hb2 hb3) (TRef.of y hy hy2 hy3) f : HloOp τ sig Val).result V)
      = f (rd (TRef.of a ha ha2 ha3) V) (rd (TRef.of b hb hb2 hb3) V) := by
  unfold rd
  rw [binary_result]
  exact ofBuf_toBuf _ _

/-- An operation leaves every buffer but its result as it was. -/
theorem rd_nullary_ne (r : Ref sig .tc) (hr : r.ty = T) (hr2 hr3) (y' : TRef sig Ty) (v : Ty.Contents Val)
    (V : Valuation τ sig Val) (h : r ≠ y'.ref) :
    rd (TRef.of r hr hr2 hr3) ((TRef.nullary y' v : HloOp τ sig Val).result V) = rd (TRef.of r hr hr2 hr3) V := by
  unfold rd
  rw [nullary_result_ne (h := h)]

theorem rd_unary_ne (r : Ref sig .tc) (hr : r.ty = T) (hr2 hr3) (x' : TRef sig Tx) (y' : TRef sig Ty)
    (f : Tx.Contents Val → Ty.Contents Val) (V : Valuation τ sig Val) (h : r ≠ y'.ref) :
    rd (TRef.of r hr hr2 hr3) ((TRef.unary x' y' f : HloOp τ sig Val).result V) = rd (TRef.of r hr hr2 hr3) V := by
  unfold rd
  rw [unary_result_ne (h := h)]

theorem rd_binary_ne (r : Ref sig .tc) (hr : r.ty = T) (hr2 hr3) (a' : TRef sig Ta) (b' : TRef sig Tb) (y' : TRef sig Ty)
    (f : Ta.Contents Val → Tb.Contents Val → Ty.Contents Val) (V : Valuation τ sig Val) (h : r ≠ y'.ref) :
    rd (TRef.of r hr hr2 hr3) ((TRef.binary a' b' y' f : HloOp τ sig Val).result V) = rd (TRef.of r hr hr2 hr3) V := by
  unfold rd
  rw [binary_result_ne (h := h)]

/-- The same of a one-operand operation over bare references. -/
theorem rd_unary_ne' (r : Ref sig .tc) (hr : r.ty = T) (hr2 hr3) (x y : Ref sig .tc)
    (f : x.ty.Contents Val → y.ty.Contents Val) (hx hy) (V : Valuation τ sig Val) (h : r ≠ y) :
    rd (TRef.of r hr hr2 hr3) ((unary (τ := τ) x y f hx hy).result V) = rd (TRef.of r hr hr2 hr3) V := by
  unfold rd
  rw [unary_result_ne (h := h)]

/-- Any buffer, read at its own type. -/
theorem rd_of (r : Ref sig .tc) (h2 h3) (V : Valuation τ sig Val) :
    V (Proc.devRef .tc r) = rd (TRef.of r rfl h2 h3) V := rfl

end Idealize.ShloMosaic.StableHlo.TypedRead

end
-- ==== Proof.RefValue.lean ====
/-
  The reference program's run, read in its stage functions.

  The reference is a straight line of 104 host operations. Every weakly fair execution of it ends with each
  buffer at the fold of the operations over the launch contents. What that fold leaves in a buffer is, operation by
  operation, the stage function of the arguments that reads that operation. The attention weights, the new hidden
  state and the logits are read so directly. For the log-probabilities the line is cut after the logits: its last
  sixteen operations (the log-softmax and the hidden state's broadcast) run from whatever the first eighty-eight
  left, write neither the logits nor anything the log-softmax does not own, and leave the log-softmax of the
  logits' buffer. The arguments are written by no operation.
-/
import proofs.«154912_j14027363189411_1_alg».proof.Proof.RefOps
import proofs.«154912_j14027363189411_1_alg».proof.Proof.RefStages
import proofs.«154912_j14027363189411_1_alg».proof.Proof.KernelTail
import proofs.«154912_j14027363189411_1_alg».proof.Proof.LibTypedReads
import Idealize.ShloMosaic.Lib.Pipeline.Regions

-- one declaration at a time: each reads the whole line of operations, and together they would not fit the machine
set_option Elab.async false

noncomputable section

namespace Cert.ReferenceIdeal.Hand

open Cert.ReferenceIdeal Cert.ReferenceIdeal.Gen Cert.ReferenceIdeal.Ops Cert.ReferenceIdeal.Read
open Idealize.ShloMosaic Idealize.ShloMosaic.TcCoe Idealize.SL.Sem Idealize.ShloMosaic.StableHlo
open Idealize.ShloMosaic.StableHlo.TypedRead

variable {F : FTy → Type} [FloatOps F]

/-- The reference's last sixteen operations: the log-softmax of the logits' buffer, then the broadcast of the new
    hidden state. -/
abbrev opsTail : List (HloOp τ sig (Elt F)) :=
  [ TRef.nullary (TRef.of (T := ⟨S_, .f32⟩) main_call1_cst) (constant S_ .f32 0xFF800000#32),
    TRef.binary (TRef.of (T := ⟨S1x50257, .f32⟩) main_v75) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v75) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v76) subf,
    unary main_v71 main_v77 (broadcastInDim S1x1x1024 ![1, 2] bcast_S1x1024_S1x1x1024_1_2 : (⟨S1x1024, .f32⟩ : BufTy).Contents (Elt F) → (⟨S1x1x1024, .f32⟩ : BufTy).Contents (Elt F)) ]

/-- The line is its first eighty-eight operations followed by those sixteen. -/
theorem ops_split : (ops : List (HloOp τ sig (Elt F))) = ops.take 88 ++ opsTail := by
  chain_rfl

theorem after_split (V : Valuation τ sig (Elt F)) (b : DevRef τ sig) :
    after (ops (F := F)) V b = after opsTail (after (ops.take 88) V) b :=
  (congrArg (fun L => after L V b) ops_split).trans (congrFun (StableHlo.after_append _ _ V) b)

set_option maxRecDepth 8192 in
set_option maxHeartbeats 1000000 in
/-- The sixteen leave the log-softmax of what the logits' buffer held: each of the log-softmax's operations is read
    at its typed result, and the broadcast after them writes another buffer. -/
theorem tail_logprobs (W : Valuation τ sig (Elt F)) :
    after (opsTail (F := F)) W (Proc.devRef .tc main_v76) = Cert.KernelIdeal.Hand.lsm (F := F) (W (Proc.devRef .tc main_v75)) := by
  have h75 : rd (T := ⟨S1x50257, .f32⟩) (TRef.of main_v75) W = W (Proc.devRef .tc main_v75) := rfl
  have h76 : ∀ V : Valuation τ sig (Elt F),
      V (Proc.devRef .tc main_v76) = rd (T := ⟨S1x50257, .f32⟩) (TRef.of main_v76) V := fun _ => rfl
  refine (h76 _).trans ?_
  unfold opsTail
  simp (disch := decide) only [after_cons, after_nil, rd_nullary, rd_unary, rd_binary, rd_nullary_ne, rd_unary_ne,
    rd_binary_ne, rd_unary_ne']
  rw [h75]
  rfl

/-- They do not write the logits' buffer. -/
theorem tail_keeps_logits (W : Valuation τ sig (Elt F)) :
    after (opsTail (F := F)) W (Proc.devRef .tc main_v75) = W (Proc.devRef .tc main_v75) :=
  after_of_forall_not_mem (b := Proc.devRef .tc main_v75) _ _ (List.forall_iff_forall_mem.mp (by
    simp only [opsTail, List.Forall, nullary_writes, unary_writes, binary_writes, Finset.mem_singleton]
    repeat' apply And.intro
    all_goals exact devRef_ne_of_ne (by decide)))

/-! ## No operation writes an argument -/

theorem arg0_kept (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg1_kept (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg2_kept (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg3_kept (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg4_kept (V : Valuation τ sig (Elt F)) :
    after (ops (F := F)) V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg5_kept (V : Valuation τ sig (Elt F)) :
    after (ops (F := F)) V (Proc.devRef .tc main_arg5) = V (Proc.devRef .tc main_arg5) :=
  after_of_forall_not_mem (b := Proc.devRef .tc main_arg5) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg6_kept (V : Valuation τ sig (Elt F)) :
    after (ops (F := F)) V (Proc.devRef .tc main_arg6) = V (Proc.devRef .tc main_arg6) :=
  after_of_forall_not_mem (b := Proc.devRef .tc main_arg6) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg7_kept (V : Valuation τ sig (Elt F)) :
    after (ops (F := F)) V (Proc.devRef .tc main_arg7) = V (Proc.devRef .tc main_arg7) :=
  after_of_forall_not_mem (b := Proc.devRef .tc main_arg7) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg8_kept (V : Valuation τ sig (Elt F)) :
    after (ops (F := F)) V (Proc.devRef .tc main_arg8) = V (Proc.devRef .tc main_arg8) :=
  after_of_forall_not_mem (b := Proc.devRef .tc main_arg8) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg9_kept (V : Valuation τ sig (Elt F)) :
    after (ops (F := F)) V (Proc.devRef .tc main_arg9) = V (Proc.devRef .tc main_arg9) :=
  after_of_forall_not_mem (b := Proc.devRef .tc main_arg9) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg10_kept (V : Valuation τ sig (Elt F)) :
    after (ops (F := F)) V (Proc.devRef .tc main_arg10) = V (Proc.devRef .tc main_arg10) :=
  after_of_forall_not_mem (b := Proc.devRef .tc main_arg10) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg11_kept (V : Valuation τ sig (Elt F)) :
    after (ops (F := F)) V (Proc.devRef .tc main_arg11) = V (Proc.devRef .tc main_arg11) :=
  after_of_forall_not_mem (b := Proc.devRef .tc main_arg11) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg12_kept (V : Valuation τ sig (Elt F)) :
    after (ops (F := F)) V (Proc.devRef .tc main_arg12) = V (Proc.devRef .tc main_arg12) :=
  after_of_forall_not_mem (b := Proc.devRef .tc main_arg12) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))
theorem arg13_kept (V : Valuation τ sig (Elt F)) :
    after (ops (F := F)) V (Proc.devRef .tc main_arg13) = V (Proc.devRef .tc main_arg13) :=
  after_of_forall_not_mem (b := Proc.devRef .tc main_arg13) _ _ (List.forall_iff_forall_mem.mp (by
    simp only [ops, List.Forall, nullary_writes, unary_writes, binary_writes, ternary_writes, quaternary_writes, reshape_writes,
      binaryIndexed_writes, Finset.mem_singleton]
    repeat' apply And.intro
    all_goals exact devRef_ne_of_ne (by decide)))

section Values

variable (m : (ℓ : Loc nD τ sig) → Buf (Elt F) ℓ) (c : Dev nD)

set_option maxRecDepth 8192 in
set_option maxHeartbeats 4000000 in
theorem after_weights : after (ops (F := F)) (launchContents m c) (Proc.devRef .tc main_v25)
    = val_main_v25 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  after_results_simp <;> chain_rfl

set_option maxRecDepth 8192 in
set_option maxHeartbeats 4000000 in
theorem after_hnew : after (ops (F := F)) (launchContents m c) (Proc.devRef .tc main_v77)
    = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  after_results_simp <;> chain_rfl

set_option maxRecDepth 8192 in
set_option maxHeartbeats 4000000 in
theorem after_logits : after (ops (F := F)) (launchContents m c) (Proc.devRef .tc main_v75)
    = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  after_results_simp <;> chain_rfl

/-- The log-probabilities: the log-softmax of the logits, which is the reference's last stage. -/
theorem after_logprobs : after (ops (F := F)) (launchContents m c) (Proc.devRef .tc main_v76)
    = val_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_split, tail_logprobs, ← tail_keeps_logits (after (ops.take 88) (launchContents m c)), ← after_split, after_logits]
  exact Cert.KernelIdeal.Hand.lsm_ref _ _ _ _ _ _ _ _ _ _ _ _ _ _

end Values

/-- Every weakly fair execution of the reference terminates with the three results at their stage functions of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76) = val_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v25) = val_main_v25 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v76).trans (after_logprobs m c),
      (h c main_v77).trans (after_hnew m c),
      (h c main_v25).trans (after_weights m c),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _),
      (h c main_arg10).trans (arg10_kept _),
      (h c main_arg11).trans (arg11_kept _),
      (h c main_arg12).trans (arg12_kept _),
      (h c main_arg13).trans (arg13_kept _)⟩)
    (run_seq scopedRefs_eq scopedSems_eq defs main (fun _ => ops) main_eq (fun _ => ops_sub) m ρ)

end Cert.ReferenceIdeal.Hand

end
-- ==== Proof.lean ====
/-
  The proof of `Cert.Claim`: a single-step attention decoder whose vocabulary projection runs as one kernel region,
  against its plain reference.

  Both programs compute, by the same host operations, the embedding lookup, the attention softmax over 512
  positions and the GRU cell's new hidden state h'. The kernel program then forms the logits
  L[0, v] = Σ_k h'[0, k] · Wo[v, k] + bo[v] block by block over the 50257 vocabulary columns (seventeen blocks of 3072,
  the last cut at the arrays' end), where the reference contracts h' with the transposed matrix and adds the
  broadcast bias; both end with the same log-softmax of L, the broadcast of h', and the attention weights.

  At the extended reals the two logits agree entry by entry: a narrowing of the float format is the identity, the
  block product is the plain sum over the 1024 hidden coordinates, and a column of a cut block that lies inside the
  array reads only rows and bias entries inside the arrays. No law beyond reading both sums at an index is
  used, so the finiteness of the inputs is not needed. The three frames: the word-level program's holds
  whatever the cut blocks' tails and the block product make of the result (its result window is left unnamed); the
  idealized program's and the reference's are read off their value runs. The idealization rewrote nothing.
-/
import proofs.«154912_j14027363189411_1_alg».proof.Defs
import proofs.«154912_j14027363189411_1_alg».proof.Proof.Gen.Kernel
import proofs.«154912_j14027363189411_1_alg».proof.Proof.Gen.KernelIdeal
import proofs.«154912_j14027363189411_1_alg».proof.Proof.Gen.ReferenceIdeal
import proofs.«154912_j14027363189411_1_alg».proof.Proof.Gen.Pre_finite_inputs
import proofs.«154912_j14027363189411_1_alg».proof.Proof.KernelFrame
import proofs.«154912_j14027363189411_1_alg».proof.Proof.IdealValues
import proofs.«154912_j14027363189411_1_alg».proof.Proof.KernelPrefix
import proofs.«154912_j14027363189411_1_alg».proof.Proof.RefLogits
import proofs.«154912_j14027363189411_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

section Bridge

variable (m : (ℓ : Loc Cert.KernelIdeal.nD Cert.KernelIdeal.τ Cert.KernelIdeal.sig) → Buf (Elt Ideal) ℓ) (c : Dev Cert.KernelIdeal.nD)

/-- The logits of the arrays the kernel region finds are the reference's logits stage of the same arguments: entry
    (0, v) of either is the inner product of the new hidden state with row v of the weight matrix plus the bias
    entry; the hidden state the region finds is the reference's stage of the arguments, the matrix is an argument,
    the bias row the region finds is the bias argument reshaped. -/
theorem logits_eq : Cert.KernelIdeal.Hand.G m c
    = Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  funext i
  refine Eq.trans ?_ (Cert.ReferenceIdeal.Hand.logits_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) i).symm
  unfold Cert.KernelIdeal.Hand.G Cert.KernelIdeal.Hand.logits
  exact congrArg₂ (· + ·)
    (Finset.sum_congr rfl fun k _ => congrArg₂ (· * ·) (congrFun (Cert.KernelIdeal.Hand.V_hnew m c) _)
      (congrFun (Cert.KernelIdeal.Gen.V_main_arg12 m c) _))
    (Cert.KernelIdeal.Hand.V_bias_apply m c (i 1))

end Bridge

theorem frame_k : Cert.frame_Kernel := Cert.Kernel.Hand.frame

theorem frame_ki : Cert.frame_KernelIdeal := Cert.KernelIdeal.Hand.frame_ideal

/-- The reference's frame is its value run with the results dropped. -/
theorem frame_ri : Cert.frame_ReferenceIdeal := fun m ρ _ =>
  (θ_run Cert.ReferenceIdeal.defs _ _).mono (fun _ h c => (h c).2.2.2) (Cert.ReferenceIdeal.Hand.run (F := Ideal) m ρ)

theorem preserves : Cert.preserves_Kernel_KernelIdeal := trivial

set_option maxHeartbeats 2000000 in
/-- From memories agreeing on the arguments both programs end at the reference's three stage functions of the
    arguments: the log-softmax of the common logits, the broadcast new hidden state, the attention weights. -/
theorem algebraic : Cert.algebraic_KernelIdeal_ReferenceIdeal := by
  intro m ρ m' ρ' _ hagree
  refine ⟨fun c => Cert.ReferenceIdeal.Read.val_main_v76 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)),
    fun c => Cert.ReferenceIdeal.Read.val_main_v77 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)),
    fun c => Cert.ReferenceIdeal.Read.val_main_v25 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)),
    ?_, Cert.ReferenceIdeal.Hand.run (F := Ideal) m' ρ'⟩
  refine (θ_run Cert.KernelIdeal.defs _ _).mono (fun r h c => ?_) (Cert.KernelIdeal.Hand.run_results m ρ)
  obtain ⟨h72, h73, h25, hargs⟩ := h c
  obtain ⟨e0, e1, e2, e3, e4, e5, e6, e7, e8, e9, e10, e11, e12, e13⟩ := hagree c
  refine ⟨?_, ?_, ?_, hargs⟩
  · rw [h72, logits_eq m c]
    simp only [e0, e1, e2, e3, e4, e5, e6, e7, e8, e9, e10, e11, e12, e13]
    exact Cert.KernelIdeal.Hand.lsm_ref _ _ _ _ _ _ _ _ _ _ _ _ _ _
  · rw [h73, Cert.KernelIdeal.Hand.V_hnew m c]
    simp only [e0, e1, e2, e3, e4, e5, e6, e7, e8, e9, e10, e11]
    exact Cert.KernelIdeal.Hand.hnew_ref _ _ _ _ _ _ _ _ _ _ _ _
  · rw [h25, Cert.KernelIdeal.Hand.V_weights m c]
    simp only [e0, e1, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
